-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S512x64 : Shape := ⟨2, ![512, 64]⟩
abbrev S1x512x64 : Shape := ⟨3, ![1, 512, 64]⟩
abbrev S64 : Shape := ⟨1, ![64]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S1x512x64 : S_.BroadcastsInDim S1x512x64 (![] : Fin 0 → Fin S1x512x64.rank)
  reducesTo_S1x512x64_S_d0_1_2 : S1x512x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32x2048x512 .f32) (main_arg1 : FVec F S512x64 .f32) (main_arg2 : FVec F S1x512x64 .f32) (main_arg3 : FVec F S64 .f32) (main_arg4 : FVec F S64 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S1x512x64 .f32 := Host.absf main_arg2
  let main_cst_2 : FVec F S_ .f32 := constant S_ .f32 0x7F800000#32
  let main_v10 : FVec F S1x512x64 .f32 := broadcastInDim S1x512x64 ![] bcast_S_S1x512x64 main_cst_2
  let main_v11 : IVec S1x512x64 1 := cmpf .olt main_v9 main_v10
  let main_c_3 : IVec S_ 1 := constantI S_ 1 1#1
  let main_v12 : IVec S_ 1 := (fun x v => Host.reduce IntOp.andi x v reducesTo_S1x512x64_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S32x2048x512 : Shape := ⟨3, ![32, 2048, 512]⟩
abbrev S512x64 : Shape := ⟨2, ![512, 64]⟩
abbrev S1x512x64 : Shape := ⟨3, ![1, 512, 64]⟩
abbrev S64 : Shape := ⟨1, ![64]⟩
abbrev S65536x512 : Shape := ⟨2, ![65536, 512]⟩
abbrev S65536x64 : Shape := ⟨2, ![65536, 64]⟩
abbrev S4096x512 : Shape := ⟨2, ![4096, 512]⟩
abbrev S4096x64 : Shape := ⟨2, ![4096, 64]⟩
abbrev S_ : Shape := ⟨0, ![]⟩
abbrev S1x64 : Shape := ⟨2, ![1, 64]⟩
abbrev S32x2048x64 : Shape := ⟨3, ![32, 2048, 64]⟩
abbrev S32x512x64 : Shape := ⟨3, ![32, 512, 64]⟩
abbrev S1x2048x512 : Shape := ⟨3, ![1, 2048, 512]⟩
abbrev S1x2048x64 : Shape := ⟨3, ![1, 2048, 64]⟩
abbrev S2048x64 : Shape := ⟨2, ![2048, 64]⟩
abbrev S2048 : Shape := ⟨1, ![2048]⟩
abbrev S2048x1 : Shape := ⟨2, ![2048, 1]⟩
abbrev S2048x512 : Shape := ⟨2, ![2048, 512]⟩
abbrev S32x32768 : Shape := ⟨2, ![32, 32768]⟩
abbrev S32 : Shape := ⟨1, ![32]⟩
abbrev S32x1 : Shape := ⟨2, ![32, 1]⟩

abbrev nBuf : Space → Nat
  | .hbm => 52
  | .vmem => 16
  | .smem => 0
  | _ => 0

abbrev bufTy : (tb : Table) → Fin (tcTables nBuf tb) → BufTy
  | .hbm, ⟨0, _⟩ => ⟨S32x2048x512, .f32⟩
  | .hbm, ⟨1, _⟩ => ⟨S512x64, .f32⟩
  | .hbm, ⟨2, _⟩ => ⟨S1x512x64, .f32⟩
  | .hbm, ⟨3, _⟩ => ⟨S64, .f32⟩
  | .hbm, ⟨4, _⟩ => ⟨S64, .f32⟩
  | .hbm, ⟨5, _⟩ => ⟨S65536x512, .f32⟩
  | .hbm, ⟨6, _⟩ => ⟨S65536x64, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .i32⟩
  | .hbm, ⟨13, _⟩ => ⟨S_, .f32⟩
  | .hbm, ⟨14, _⟩ => ⟨S64, .f32⟩
  | .hbm, ⟨15, _⟩ => ⟨S1x64, .f32⟩
  | .hbm, ⟨16, _⟩ => ⟨S_, .f32⟩
  | .hbm, ⟨17, _⟩ => ⟨S1x64, .f32⟩
  | .hbm, ⟨18, _⟩ => ⟨S1x64, .f32⟩
  | .hbm, ⟨19, _⟩ => ⟨S65536x64, .f32⟩
  | .hbm, ⟨20, _⟩ => ⟨S65536x64, .f32⟩
  | .hbm, ⟨21, _⟩ => ⟨S65536x64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S32x2048x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S32x512x64, .f32⟩
  | .hbm, ⟨41, _⟩ => ⟨S32x32768, .f32⟩
  | .hbm, ⟨42, _⟩ => ⟨S32x32768, .f32⟩
  | .hbm, ⟨43, _⟩ => ⟨S_, .f32⟩
  | .hbm, ⟨44, _⟩ => ⟨S32, .f32⟩
  | .hbm, ⟨45, _⟩ => ⟨S32x1, .f32⟩
  | .hbm, ⟨46, _⟩ => ⟨S32x1, .f32⟩
  | .hbm, ⟨47, _⟩ => ⟨S_, .f32⟩
  | .hbm, ⟨48, _⟩ => ⟨S32x1, .f32⟩
  | .hbm, ⟨49, _⟩ => ⟨S32x1, .f32⟩
  | .hbm, ⟨50, _⟩ => ⟨S32x32768, .f32⟩
  | .hbm, ⟨51, _⟩ => ⟨S32x32768, .f32⟩
  | .local _ .vmem, ⟨0, _⟩ => ⟨S4096x512, .f32⟩
  | .local _ .vmem, ⟨1, _⟩ => ⟨S4096x512, .f32⟩
  | .local _ .vmem, ⟨2, _⟩ => ⟨S512x64, .f32⟩
  | .local _ .vmem, ⟨3, _⟩ => ⟨S4096x64, .f32⟩
  | .local _ .vmem, ⟨4, _⟩ => ⟨S4096x64, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x64, .f32⟩
  | .local _ .vmem, ⟨8, _⟩ => ⟨S1x2048x64, .f32⟩
  | .local _ .vmem, ⟨9, _⟩ => ⟨S1x512x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x512x64, .f32⟩
  | .local _ .vmem, ⟨15, _⟩ => ⟨S1x512x64, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_2 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x512x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S32x2048x512_S65536x512 : S32x2048x512.ShapeCasts S65536x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x64_S512x64_0_0 : ∀ a, (![0, 0] : Fin 2 → Nat) a + S512x64.size a ≤ S512x64.size a
  h_S512x64 : 0 < S512x64.numel
  inb_S4096x64_S4096x64_0_0 : ∀ a, (![0, 0] : Fin 2 → Nat) a + S4096x64.size a ≤ S4096x64.size a
  h_S4096x64 : 0 < S4096x64.numel
  reducesTo_S65536x64_S64_d0 : S65536x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S65536x64_0_1 : S1x64.BroadcastsInDim S65536x64 (![0, 1] : Fin 2 → Fin S65536x64.rank)
  shapeCasts_S65536x64_S32x2048x64 : S65536x64.ShapeCasts S32x2048x64
  shapeCasts_S64_S1x64 : S64.ShapeCasts S1x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  shapeCasts_S2048_S2048x1 : S2048.ShapeCasts S2048x1
  broadcasts_S2048x1_S2048x64 : S2048x1.Broadcasts S2048x64
  reduces_S2048x64_S64 : S2048x64.Reduces [0] S64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  broadcasts_S1x64_S512x64 : S1x64.Broadcasts S512x64
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S512x64_S64 : S512x64.Reduces [0] S64
  shapeCasts_S512x64_S1x512x64 : S512x64.ShapeCasts S1x512x64
  shapeCasts_S32x512x64_S32x32768 : S32x512x64.ShapeCasts S32x32768
  reducesTo_S32x32768_S32_d1 : S32x32768.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32768_0_1 : S32x1.BroadcastsInDim S32x32768 (![0, 1] : Fin 2 → Fin S32x32768.rank)
  dot_S4096x512_S512x64_S4096x64_1_0_0_1_n_n_wf : DotDims.WF S4096x512 S512x64 S4096x64 [1] [0] [0] [1] [] []
  dot_S2048x512_S2048x64_S512x64_0_0_1_1_n_n_wf : DotDims.WF S2048x512 S2048x64 S512x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S65536x64.size a
  hwx0_2 : ∀ i : grid0.Coords, EltTy.bits .f32 = 32 ∨ (Rect.block (s := S65536x64) S4096x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S32x2048x512.size a
  hwx1_0 : ∀ i : grid1.Coords, EltTy.bits .f32 = 32 ∨ (Rect.block (s := S32x2048x512) S1x2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .f32 = 32 ∨ (Rect.block (s := S32x2048x64) S1x2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S1x512x64.size a
  hwx1_2 : ∀ i : grid1.Coords, EltTy.bits .f32 = 32 ∨ (Rect.block (s := S1x512x64) S1x512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x64.size a ≤ S32x512x64.size a
  hwx1_7 : ∀ i : grid1.Coords, EltTy.bits .f32 = 32 ∨ (Rect.block (s := S32x512x64) S1x512x64.size (cc1_transform_7 i) (hinb1_7 i)).WholeWords (EltTy.packing .f32)

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S2048x512_S2048x64_S512x64_0_0_1_1_n_n : DotDims S2048x512 S2048x64 S512x64 where
  lhsContracting := [0]
  rhsContracting := [0]
  lhsNonContracting := [1]
  rhsNonContracting := [1]
  lhsBatch := []
  rhsBatch := []
  wf := dot_S2048x512_S2048x64_S512x64_0_0_1_1_n_n_wf

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x512x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1x512x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32x2048x512 : Shape := ⟨3, ![32, 2048, 512]⟩
abbrev S512x64 : Shape := ⟨2, ![512, 64]⟩
abbrev S1x512x64 : Shape := ⟨3, ![1, 512, 64]⟩
abbrev S64 : Shape := ⟨1, ![64]⟩
abbrev S65536x512 : Shape := ⟨2, ![65536, 512]⟩
abbrev S65536x64 : Shape := ⟨2, ![65536, 64]⟩
abbrev S_ : Shape := ⟨0, ![]⟩
abbrev S1x64 : Shape := ⟨2, ![1, 64]⟩
abbrev S65536 : Shape := ⟨1, ![65536]⟩
abbrev S65536x1 : Shape := ⟨2, ![65536, 1]⟩
abbrev S32x2048x64 : Shape := ⟨3, ![32, 2048, 64]⟩
abbrev S32x64 : Shape := ⟨2, ![32, 64]⟩
abbrev S32x1x64 : Shape := ⟨3, ![32, 1, 64]⟩
abbrev S32x512x64 : Shape := ⟨3, ![32, 512, 64]⟩
abbrev S32x32768 : Shape := ⟨2, ![32, 32768]⟩
abbrev S32 : Shape := ⟨1, ![32]⟩
abbrev S32x1 : Shape := ⟨2, ![32, 1]⟩

abbrev nBuf : Space → Nat
  | .hbm => 95
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S512x64, .f32⟩
  | .hbm, ⟨2, _⟩ => ⟨S1x512x64, .f32⟩
  | .hbm, ⟨3, _⟩ => ⟨S64, .f32⟩
  | .hbm, ⟨4, _⟩ => ⟨S64, .f32⟩
  | .hbm, ⟨5, _⟩ => ⟨S65536x512, .f32⟩
  | .hbm, ⟨6, _⟩ => ⟨S65536x64, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .i32⟩
  | .hbm, ⟨13, _⟩ => ⟨S_, .f32⟩
  | .hbm, ⟨14, _⟩ => ⟨S64, .f32⟩
  | .hbm, ⟨15, _⟩ => ⟨S1x64, .f32⟩
  | .hbm, ⟨16, _⟩ => ⟨S_, .f32⟩
  | .hbm, ⟨17, _⟩ => ⟨S1x64, .f32⟩
  | .hbm, ⟨18, _⟩ => ⟨S1x64, .f32⟩
  | .hbm, ⟨19, _⟩ => ⟨S65536x64, .f32⟩
  | .hbm, ⟨20, _⟩ => ⟨S65536x64, .f32⟩
  | .hbm, ⟨21, _⟩ => ⟨S65536x64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S65536x64, .f32⟩
  | .hbm, ⟨37, _⟩ => ⟨S65536x64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S65536x64, .f32⟩
  | .hbm, ⟨44, _⟩ => ⟨S65536x64, .f32⟩
  | .hbm, ⟨45, _⟩ => ⟨S1x64, .f32⟩
  | .hbm, ⟨46, _⟩ => ⟨S65536x64, .f32⟩
  | .hbm, ⟨47, _⟩ => ⟨S65536x64, .f32⟩
  | .hbm, ⟨48, _⟩ => ⟨S1x64, .f32⟩
  | .hbm, ⟨49, _⟩ => ⟨S65536x64, .f32⟩
  | .hbm, ⟨50, _⟩ => ⟨S65536x64, .f32⟩
  | .hbm, ⟨51, _⟩ => ⟨S_, .f32⟩
  | .hbm, ⟨52, _⟩ => ⟨S65536, .f32⟩
  | .hbm, ⟨53, _⟩ => ⟨S_, .f32⟩
  | .hbm, ⟨54, _⟩ => ⟨S65536, .f32⟩
  | .hbm, ⟨55, _⟩ => ⟨S65536, .f32⟩
  | .hbm, ⟨56, _⟩ => ⟨S65536x1, .f32⟩
  | .hbm, ⟨57, _⟩ => ⟨S65536x64, .f32⟩
  | .hbm, ⟨58, _⟩ => ⟨S65536x64, .f32⟩
  | .hbm, ⟨59, _⟩ => ⟨S65536x64, .f32⟩
  | .hbm, ⟨60, _⟩ => ⟨S_, .f32⟩
  | .hbm, ⟨61, _⟩ => ⟨S65536, .f32⟩
  | .hbm, ⟨62, _⟩ => ⟨S65536x1, .f32⟩
  | .hbm, ⟨63, _⟩ => ⟨S65536x64, .f32⟩
  | .hbm, ⟨64, _⟩ => ⟨S65536x64, .f32⟩
  | .hbm, ⟨65, _⟩ => ⟨S32x2048x64, .f32⟩
  | .hbm, ⟨66, _⟩ => ⟨S_, .f32⟩
  | .hbm, ⟨67, _⟩ => ⟨S32x64, .f32⟩
  | .hbm, ⟨68, _⟩ => ⟨S32x1x64, .f32⟩
  | .hbm, ⟨69, _⟩ => ⟨S32x512x64, .f32⟩
  | .hbm, ⟨70, _⟩ => ⟨S32x512x64, .f32⟩
  | .hbm, ⟨71, _⟩ => ⟨S32x512x64, .f32⟩
  | .hbm, ⟨72, _⟩ => ⟨S32x512x64, .f32⟩
  | .hbm, ⟨73, _⟩ => ⟨S32x512x64, .f32⟩
  | .hbm, ⟨74, _⟩ => ⟨S32x512x64, .f32⟩
  | .hbm, ⟨75, _⟩ => ⟨S_, .f32⟩
  | .hbm, ⟨76, _⟩ => ⟨S32x64, .f32⟩
  | .hbm, ⟨77, _⟩ => ⟨S32x1x64, .f32⟩
  | .hbm, ⟨78, _⟩ => ⟨S32x1x64, .f32⟩
  | .hbm, ⟨79, _⟩ => ⟨S_, .f32⟩
  | .hbm, ⟨80, _⟩ => ⟨S32x1x64, .f32⟩
  | .hbm, ⟨81, _⟩ => ⟨S32x1x64, .f32⟩
  | .hbm, ⟨82, _⟩ => ⟨S32x512x64, .f32⟩
  | .hbm, ⟨83, _⟩ => ⟨S32x512x64, .f32⟩
  | .hbm, ⟨84, _⟩ => ⟨S32x32768, .f32⟩
  | .hbm, ⟨85, _⟩ => ⟨S32x32768, .f32⟩
  | .hbm, ⟨86, _⟩ => ⟨S_, .f32⟩
  | .hbm, ⟨87, _⟩ => ⟨S32, .f32⟩
  | .hbm, ⟨88, _⟩ => ⟨S32x1, .f32⟩
  | .hbm, ⟨89, _⟩ => ⟨S32x1, .f32⟩
  | .hbm, ⟨90, _⟩ => ⟨S_, .f32⟩
  | .hbm, ⟨91, _⟩ => ⟨S32x1, .f32⟩
  | .hbm, ⟨92, _⟩ => ⟨S32x1, .f32⟩
  | .hbm, ⟨93, _⟩ => ⟨S32x32768, .f32⟩
  | .hbm, ⟨94, _⟩ => ⟨S32x32768, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_2 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_5 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_6 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_7 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_8 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_9 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩

abbrev nD : Nat := 1
abbrev τ : Topo := Topo.v7x

variable {F : FTy → Type} [FloatOps F]

class Facts₀ : Prop where
  shapeCasts_S32x2048x512_S65536x512 : S32x2048x512.ShapeCasts S65536x512
  reducesTo_S65536x64_S64_d0 : S65536x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S65536x64_0_1 : S1x64.BroadcastsInDim S65536x64 (![0, 1] : Fin 2 → Fin S65536x64.rank)
  reducesTo_S65536x64_S65536_d1 : S65536x64.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x64_S32x2048x64 : S65536x64.ShapeCasts S32x2048x64
  reducesTo_S32x2048x64_S32x64_d1 : S32x2048x64.ReducesTo [1] S32x64
  bcast_S32x64_S32x1x64_0_2 : S32x64.BroadcastsInDim S32x1x64 (![0, 2] : Fin 2 → Fin S32x1x64.rank)
  bcast_S32x1x64_S32x512x64_0_1_2 : S32x1x64.BroadcastsInDim S32x512x64 (![0, 1, 2] : Fin 3 → Fin S32x512x64.rank)
  bcast_S1x512x64_S32x512x64_0_1_2 : S1x512x64.BroadcastsInDim S32x512x64 (![0, 1, 2] : Fin 3 → Fin S32x512x64.rank)
  reducesTo_S32x512x64_S32x64_d1 : S32x512x64.ReducesTo [1] S32x64
  bcast_S_S32x1x64 : S_.BroadcastsInDim S32x1x64 (![] : Fin 0 → Fin S32x1x64.rank)
  shapeCasts_S32x512x64_S32x32768 : S32x512x64.ShapeCasts S32x32768
  reducesTo_S32x32768_S32_d1 : S32x32768.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32768_0_1 : S32x1.BroadcastsInDim S32x32768 (![0, 1] : Fin 2 → Fin S32x32768.rank)
  dot_S65536x512_S512x64_S65536x64_1_0_0_1_n_n_wf : DotDims.WF S65536x512 S512x64 S65536x64 [1] [0] [0] [1] [] []
  dot_S32x2048x512_S32x2048x64_S32x512x64_1_1_2_2_0_0_wf : DotDims.WF S32x2048x512 S32x2048x64 S32x512x64 [1] [1] [2] [2] [0] [0]

variable [Facts₀]

def dot_S65536x512_S512x64_S65536x64_1_0_0_1_n_n : DotDims S65536x512 S512x64 S65536x64 where
  lhsContracting := [1]
  rhsContracting := [0]
  lhsNonContracting := [0]
  rhsNonContracting := [1]
  lhsBatch := []
  rhsBatch := []
  wf := dot_S65536x512_S512x64_S65536x64_1_0_0_1_n_n_wf
def dot_S32x2048x512_S32x2048x64_S32x512x64_1_1_2_2_0_0 : DotDims S32x2048x512 S32x2048x64 S32x512x64 where
  lhsContracting := [1]
  rhsContracting := [1]
  lhsNonContracting := [2]
  rhsNonContracting := [2]
  lhsBatch := [0]
  rhsBatch := [0]
  wf := dot_S32x2048x512_S32x2048x64_S32x512x64_1_1_2_2_0_0_wf

class Facts : Prop extends Facts₀ where

variable [Facts]
-- ==== Proof.Spec.lean ====
/-
  The mathematics of the certificate, free of both programs: NetVLAD soft assignment with a batch-normalised
  score, the residual aggregation against the second cluster table, and the column normalisation over the
  feature axis, each as a plain function of Fin-indexed extended reals; then the same over the literal array
  shapes of the two programs.

  For one batch member with feature rows x[n, ·] (n < 2048, 512 features) and raw scores a[n, ·] (64 clusters):
    z[n, k]  = ((a[n, k] - mu[k]) * rsqrt (va[k] + eps₁)) * g[k] + be[k]
    p[n, ·]  = softmax of z[n, ·], written exp (z - M) / sum exp (z - M), M the row's maximum (from -inf)
    w[d, k]  = (sum over n of x[n, d] * p[n, k]) - (sum over n of p[n, k]) * c2[d, k]
    o[d, k]  = w[d, k] / max (sqrt (sum over d' of w[d', k]²)) eps₂
  The raw scores are a[r, k] = sum over d of xf[r, d] * cl[d, k], xf the 65536 rows of all 32 members.
-/
import Idealize.ShloMosaic.PureOps.Ideal
import Idealize.ShloMosaic.PureOps.Ideal.Laws
import Idealize.ShloMosaic.Lib.ValueIdx

noncomputable section

open scoped BigOperators

namespace Cert.Vlad

open Idealize.ShloMosaic Idealize.ShloMosaic.ValueIdx

/-! ## The literal shapes -/

abbrev T_ : Shape := ⟨0, ![]⟩
abbrev T64 : Shape := ⟨1, ![64]⟩
abbrev T32 : Shape := ⟨1, ![32]⟩
abbrev T65536 : Shape := ⟨1, ![65536]⟩
abbrev T1x64 : Shape := ⟨2, ![1, 64]⟩
abbrev T32x1 : Shape := ⟨2, ![32, 1]⟩
abbrev T32x64 : Shape := ⟨2, ![32, 64]⟩
abbrev T512x64 : Shape := ⟨2, ![512, 64]⟩
abbrev T65536x1 : Shape := ⟨2, ![65536, 1]⟩
abbrev T65536x64 : Shape := ⟨2, ![65536, 64]⟩
abbrev T65536x512 : Shape := ⟨2, ![65536, 512]⟩
abbrev T32x32768 : Shape := ⟨2, ![32, 32768]⟩
abbrev T1x512x64 : Shape := ⟨3, ![1, 512, 64]⟩
abbrev T32x1x64 : Shape := ⟨3, ![32, 1, 64]⟩
abbrev T32x512x64 : Shape := ⟨3, ![32, 512, 64]⟩
abbrev T32x2048x64 : Shape := ⟨3, ![32, 2048, 64]⟩
abbrev T32x2048x512 : Shape := ⟨3, ![32, 2048, 512]⟩

/-! ## The three literals, as the extended reals their patterns denote (never evaluated) -/

/-- The pattern of -inf: the bottom of the order the row maximum starts from. -/
def negInf : EReal := Ideal.ofBits .f32 0xFF800000#32
/-- The batch-norm epsilon's pattern (the f32 nearest 1e-5). -/
def epsBN : EReal := Ideal.ofBits .f32 0x3727C5AC#32
/-- The normalisation floor's pattern (the f32 nearest 1e-12). -/
def epsN : EReal := Ideal.ofBits .f32 0x2B8CBCCC#32

/-! ## One batch member, over coordinates -/

/-- The batch-normalised score of one row: centre, scale by the reciprocal root of the variance, then the affine map. -/
def zrow (arow mu va g be : Fin 64 → EReal) (k : Fin 64) : EReal :=
  (arow k - mu k) * Ideal.rsqrt (va k + epsBN) * g k + be k

/-- A row's maximum over its 64 entries, folded from -inf and joined with -inf once more (as both programs do). -/
def rmax (z : Fin 64 → EReal) : EReal := max negInf (Finset.univ.fold max negInf z)

/-- The softmax of one row, in the shifted form. -/
def soft (z : Fin 64 → EReal) (k : Fin 64) : EReal :=
  Ideal.div (Ideal.exp (z k - rmax z)) (∑ k' : Fin 64, Ideal.exp (z k' - rmax z))

/-- The residual: the assignment-weighted sum of the rows less the total assignment times the second table. -/
def resid (xb : Fin 2048 → Fin 512 → EReal) (pb : Fin 2048 → Fin 64 → EReal) (c2 : Fin 512 → Fin 64 → EReal)
    (d : Fin 512) (k : Fin 64) : EReal :=
  (∑ n : Fin 2048, xb n d * pb n k) - (∑ n : Fin 2048, pb n k) * c2 d k

/-- Each cluster's column divided by its Euclidean norm over the 512 features, the norm floored at eps₂. -/
def colnorm (w : Fin 512 → Fin 64 → EReal) (d : Fin 512) (k : Fin 64) : EReal :=
  Ideal.div (w d k) (max (Ideal.sqrt (∑ d' : Fin 512, w d' k * w d' k)) epsN)

/-- One member's result from its rows, its raw scores and the shared parameters. -/
def vladBlock (xb : Fin 2048 → Fin 512 → EReal) (ab : Fin 2048 → Fin 64 → EReal) (mu va g be : Fin 64 → EReal)
    (c2 : Fin 512 → Fin 64 → EReal) (d : Fin 512) (k : Fin 64) : EReal :=
  colnorm (resid xb (fun n => soft (zrow (ab n) mu va g be)) c2) d k

/-! ## Over the arrays -/

/-- Row n of member b among the 65536 flattened rows. -/
def rowOf (b : Fin 32) (n : Fin 2048) : Fin 65536 := ⟨b.val * 2048 + n.val, by have := b.isLt; have := n.isLt; omega⟩

/-- The raw scores of the flattened rows against the first cluster table. -/
def scoresF (xf : FVec Ideal T65536x512 .f32) (cl : FVec Ideal T512x64 .f32) : FVec Ideal T65536x64 .f32 :=
  fun i => ∑ d : Fin 512, xf (ix2 (i 0) d) * cl (ix2 d (i 1))

/-- One entry of the result from the whole arrays: member b's block, the scores given flattened. -/
def oAt (x : FVec Ideal T32x2048x512 .f32) (a : FVec Ideal T65536x64 .f32) (mu va g be : FVec Ideal T64 .f32)
    (c2 : FVec Ideal T1x512x64 .f32) (b : Fin 32) (d : Fin 512) (k : Fin 64) : EReal :=
  vladBlock (fun n d' => x (ix3 b n d')) (fun n k' => a (ix2 (rowOf b n) k')) (fun k' => mu (ix1 k')) (fun k' => va (ix1 k'))
    (fun k' => g (ix1 k')) (fun k' => be (ix1 k')) (fun d' k' => c2 (ix3 0 d' k')) d k

/-- The result before the final row normalisation, as one array. -/
def Oarr (x : FVec Ideal T32x2048x512 .f32) (a : FVec Ideal T65536x64 .f32) (mu va g be : FVec Ideal T64 .f32)
    (c2 : FVec Ideal T1x512x64 .f32) : FVec Ideal T32x512x64 .f32 :=
  fun i => oAt x a mu va g be c2 (i 0) (i 1) (i 2)

/-- The same entry when the scores come member by member ([32, 2048, 64]) and the four parameter vectors as one-row
    matrices ([1, 64]): the layout the second kernel's windows are cut from. -/
def oAtK (x : FVec Ideal T32x2048x512 .f32) (a3 : FVec Ideal T32x2048x64 .f32) (c2 : FVec Ideal T1x512x64 .f32)
    (mu2 va2 g2 be2 : FVec Ideal T1x64 .f32) (b : Fin 32) (d : Fin 512) (k : Fin 64) : EReal :=
  vladBlock (fun n d' => x (ix3 b n d')) (fun n k' => a3 (ix3 b n k')) (fun k' => mu2 (ix2 0 k')) (fun k' => va2 (ix2 0 k'))
    (fun k' => g2 (ix2 0 k')) (fun k' => be2 (ix2 0 k')) (fun d' k' => c2 (ix3 0 d' k')) d k

def OarrK (x : FVec Ideal T32x2048x512 .f32) (a3 : FVec Ideal T32x2048x64 .f32) (c2 : FVec Ideal T1x512x64 .f32)
    (mu2 va2 g2 be2 : FVec Ideal T1x64 .f32) : FVec Ideal T32x512x64 .f32 :=
  fun i => oAtK x a3 c2 mu2 va2 g2 be2 (i 0) (i 1) (i 2)

end Cert.Vlad

end
-- ==== Proof.Shared.lean ====
/-
  The host-side chains both programs apply, as functions of the arrays they are applied to, over the literal
  shapes: the mean and the variance of the raw scores over all 65536 rows (the variance as jnp.var spells it,
  with its guard on the divisor), and the final row normalisation of the reshaped result. Then the reference's
  own middle stretch as four stage functions: the batch-normalised scores, the row softmax, the residual
  aggregation and the column normalisation, each the reference's operations composed in order.
-/
import proofs.«160465_j19688130085433_1_alg».proof.Proof.Spec
import Idealize.ShloMosaic.PureOps

noncomputable section

namespace Cert.Vlad

open Idealize.ShloMosaic

/-! ## Shape facts (each decided) -/

theorem hT_ : 0 < T_.numel := by decide
theorem red_a0 : T65536x64.ReducesTo [0] T64 := by decide
theorem red_a1 : T65536x64.ReducesTo [1] T65536 := by decide
theorem red_p1 : T32x2048x64.ReducesTo [1] T32x64 := by decide
theorem red_o1 : T32x512x64.ReducesTo [1] T32x64 := by decide
theorem red_f1 : T32x32768.ReducesTo [1] T32 := by decide
theorem bc_s_64 : T_.BroadcastsInDim T64 (![] : Fin 0 → Fin T64.rank) := by decide
theorem bc_s_1x64 : T_.BroadcastsInDim T1x64 (![] : Fin 0 → Fin T1x64.rank) := by decide
theorem bc_s_65536 : T_.BroadcastsInDim T65536 (![] : Fin 0 → Fin T65536.rank) := by decide
theorem bc_s_32x1x64 : T_.BroadcastsInDim T32x1x64 (![] : Fin 0 → Fin T32x1x64.rank) := by decide
theorem bc_s_32x1 : T_.BroadcastsInDim T32x1 (![] : Fin 0 → Fin T32x1.rank) := by decide
theorem bc_64_1x64 : T64.BroadcastsInDim T1x64 (![1] : Fin 1 → Fin T1x64.rank) := by decide
theorem bc_1x64_a : T1x64.BroadcastsInDim T65536x64 (![0, 1] : Fin 2 → Fin T65536x64.rank) := by decide
theorem bc_65536_col : T65536.BroadcastsInDim T65536x1 (![0] : Fin 1 → Fin T65536x1.rank) := by decide
theorem bc_col_a : T65536x1.BroadcastsInDim T65536x64 (![0, 1] : Fin 2 → Fin T65536x64.rank) := by decide
theorem bc_32x64_mid : T32x64.BroadcastsInDim T32x1x64 (![0, 2] : Fin 2 → Fin T32x1x64.rank) := by decide
theorem bc_mid_o : T32x1x64.BroadcastsInDim T32x512x64 (![0, 1, 2] : Fin 3 → Fin T32x512x64.rank) := by decide
theorem bc_c2_o : T1x512x64.BroadcastsInDim T32x512x64 (![0, 1, 2] : Fin 3 → Fin T32x512x64.rank) := by decide
theorem bc_32_32x1 : T32.BroadcastsInDim T32x1 (![0] : Fin 1 → Fin T32x1.rank) := by decide
theorem bc_32x1_f : T32x1.BroadcastsInDim T32x32768 (![0, 1] : Fin 2 → Fin T32x32768.rank) := by decide
theorem sc_x_flat : T32x2048x512.ShapeCasts T65536x512 := by decide
theorem sc_a_3 : T65536x64.ShapeCasts T32x2048x64 := by decide
theorem sc_o_flat : T32x512x64.ShapeCasts T32x32768 := by decide
theorem sc_64_1x64 : T64.ShapeCasts T1x64 := by decide
theorem dotS_wf : DotDims.WF T65536x512 T512x64 T65536x64 [1] [0] [0] [1] [] [] := by decide
theorem dotV_wf : DotDims.WF T32x2048x512 T32x2048x64 T32x512x64 [1] [1] [2] [2] [0] [0] := by decide

/-- The scores' contraction: rows against the first table, over the 512 features. -/
def dotS : DotDims T65536x512 T512x64 T65536x64 where
  lhsContracting := [1]
  rhsContracting := [0]
  lhsNonContracting := [0]
  rhsNonContracting := [1]
  lhsBatch := []
  rhsBatch := []
  wf := dotS_wf

/-- The aggregation's contraction: batched over the 32 members, over the 2048 rows. -/
def dotV : DotDims T32x2048x512 T32x2048x64 T32x512x64 where
  lhsContracting := [1]
  rhsContracting := [1]
  lhsNonContracting := [2]
  rhsNonContracting := [2]
  lhsBatch := [0]
  rhsBatch := [0]
  wf := dotV_wf

variable {F : FTy → Type} [FloatOps F]

/-! ## The chains both programs share -/

/-- jnp.mean over the rows: the column sums from zero, divided by 65536. -/
def meanOf (a : FVec F T65536x64 .f32) : FVec F T64 .f32 :=
  Host.divf (Host.reduceAdd a (constant T_ .f32 0x00000000#32) red_a0 hT_)
    (broadcastInDim T64 ![] bc_s_64 (constant T_ .f32 0x47800000#32))

/-- jnp.var over the rows with ddof 0: the mean (kept as a one-row matrix), the centred squares' column sums
    divided by 65536 - 0, and the guard that answers the NaN pattern where that divisor is not positive. -/
def varOf (a : FVec F T65536x64 .f32) : FVec F T64 .f32 :=
  let mean1 : FVec F T1x64 .f32 :=
    Host.divf (broadcastInDim T1x64 ![1] bc_64_1x64 (Host.reduceAdd a (constant T_ .f32 0x00000000#32) red_a0 hT_))
      (broadcastInDim T1x64 ![] bc_s_1x64 (constant T_ .f32 0x47800000#32))
  let cen : FVec F T65536x64 .f32 := subf a (broadcastInDim T65536x64 ![0, 1] bc_1x64_a mean1)
  let n : FVec F T_ .f32 := subf (constant T_ .f32 0x47800000#32) (sitofp .f32 (constantI T_ 32 0#32))
  let q : FVec F T64 .f32 :=
    Host.divf (Host.reduceAdd (mulf cen cen) (constant T_ .f32 0x00000000#32) red_a0 hT_) (broadcastInDim T64 ![] bc_s_64 n)
  select (broadcastInDim T64 ![] bc_s_64 (cmpf .ogt n (constant T_ .f32 0x00000000#32))) q
    (broadcastInDim T64 ![] bc_s_64 (id (constant T_ .f32 0x7FC00000#32)))

/-- The final normalisation: each member's 512·64 entries as one row, divided by the row's Euclidean norm floored at eps₂. -/
def tailOf (o : FVec F T32x512x64 .f32) : FVec F T32x32768 .f32 :=
  let f : FVec F T32x32768 .f32 := shapeCast T32x32768 o sc_o_flat
  let nrm : FVec F T32x1 .f32 :=
    Host.sqrt (broadcastInDim T32x1 ![0] bc_32_32x1 (Host.reduceAdd (mulf f f) (constant T_ .f32 0x00000000#32) red_f1 hT_))
  Host.divf f (broadcastInDim T32x32768 ![0, 1] bc_32x1_f
    (maximumf nrm (broadcastInDim T32x1 ![] bc_s_32x1 (constant T_ .f32 0x2B8CBCCC#32))))

/-! ## The reference's middle stretch, stage by stage -/

/-- A vector of 64 broadcast down the 65536 rows (through a one-row matrix, as jnp broadcasts). -/
def downRows (v : FVec F T64 .f32) : FVec F T65536x64 .f32 :=
  broadcastInDim T65536x64 ![0, 1] bc_1x64_a (broadcastInDim T1x64 ![1] bc_64_1x64 v)

/-- A vector of 65536 broadcast along the 64 columns (through a one-column matrix). -/
def alongCols (v : FVec F T65536 .f32) : FVec F T65536x64 .f32 :=
  broadcastInDim T65536x64 ![0, 1] bc_col_a (broadcastInDim T65536x1 ![0] bc_65536_col v)

/-- The batch-normalised scores. -/
def rz (a : FVec F T65536x64 .f32) (mu va g be : FVec F T64 .f32) : FVec F T65536x64 .f32 :=
  addf (mulf (mulf (subf a (downRows mu))
      (downRows (Host.rsqrt (addf va (broadcastInDim T64 ![] bc_s_64 (constant T_ .f32 0x3727C5AC#32))))))
    (downRows g)) (downRows be)

/-- The row softmax in the shifted form. -/
def rp (z : FVec F T65536x64 .f32) : FVec F T65536x64 .f32 :=
  let mx : FVec F T65536 .f32 :=
    maximumf (broadcastInDim T65536 ![] bc_s_65536 (constant T_ .f32 0xFF800000#32))
      (Host.reduce FloatOps.maximumf z (constant T_ .f32 0xFF800000#32) red_a1 hT_)
  let e : FVec F T65536x64 .f32 := Host.exp (subf z (alongCols mx))
  Host.divf e (alongCols (Host.reduceAdd e (constant T_ .f32 0x00000000#32) red_a1 hT_))

/-- The residual aggregation over each member's 2048 rows. -/
def rw (x : FVec F T32x2048x512 .f32) (p : FVec F T65536x64 .f32) (c2 : FVec F T1x512x64 .f32) : FVec F T32x512x64 .f32 :=
  let p3 : FVec F T32x2048x64 .f32 := shapeCast T32x2048x64 p sc_a_3
  let tot : FVec F T32x512x64 .f32 :=
    broadcastInDim T32x512x64 ![0, 1, 2] bc_mid_o
      (broadcastInDim T32x1x64 ![0, 2] bc_32x64_mid (Host.reduceAdd p3 (constant T_ .f32 0x00000000#32) red_p1 hT_))
  subf (Host.dotGeneral dotV none x p3) (mulf tot (broadcastInDim T32x512x64 ![0, 1, 2] bc_c2_o c2))

/-- The column normalisation over the 512 features. -/
def ro (w : FVec F T32x512x64 .f32) : FVec F T32x512x64 .f32 :=
  let nrm : FVec F T32x1x64 .f32 :=
    Host.sqrt (broadcastInDim T32x1x64 ![0, 2] bc_32x64_mid (Host.reduceAdd (mulf w w) (constant T_ .f32 0x00000000#32) red_o1 hT_))
  Host.divf w (broadcastInDim T32x512x64 ![0, 1, 2] bc_mid_o
    (maximumf nrm (broadcastInDim T32x1x64 ![] bc_s_32x1x64 (constant T_ .f32 0x2B8CBCCC#32))))

/-- The reference's result before its final normalisation, from the scores and their statistics. -/
def refV47 (x : FVec F T32x2048x512 .f32) (a : FVec F T65536x64 .f32) (mu va g be : FVec F T64 .f32)
    (c2 : FVec F T1x512x64 .f32) : FVec F T32x512x64 .f32 :=
  ro (rw x (rp (rz a mu va g be)) c2)

/-- The reference's raw scores: the flattened rows against the first table. -/
def refScores (x : FVec F T32x2048x512 .f32) (cl : FVec F T512x64 .f32) : FVec F T65536x64 .f32 :=
  Host.dotGeneral dotS none (shapeCast T65536x512 x sc_x_flat) cl

/-- The reference's result from its five arguments. -/
def refOut (x : FVec F T32x2048x512 .f32) (cl : FVec F T512x64 .f32) (c2 : FVec F T1x512x64 .f32) (g be : FVec F T64 .f32) :
    FVec F T32x32768 .f32 :=
  tailOf (refV47 x (refScores x cl) (meanOf (refScores x cl)) (varOf (refScores x cl)) g be c2)

end Cert.Vlad

end
-- ==== Proof.KVal0.lean ====
/-
  The first kernel's result array: each of the 16 grid points multiplies its 4096 rows by the whole first cluster
  table and writes the 4096 x 64 block back; the blocks tile the 65536 rows, so the array after the region holds,
  at row r and cluster k, the sum over the 512 features of the row's entry times the table's.
-/
import proofs.«160465_j19688130085433_1_alg».proof.Proof.Gen.KernelIdeal.Frame
import proofs.«160465_j19688130085433_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KVal0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Vlad

/-! ## The block product at an index -/

/-- The block product's dimension numbers: rows of the left block against columns of the table, over the features. -/
abbrev dotBlk : DotDims S4096x512 S512x64 S4096x64 := dot_S4096x512_S512x64_S4096x64_1_0_0_1_n_n

-- the left operand is read at the result's row and the contracted feature,
theorem lhs_dotBlk_0 (j : S4096x64.Idx) (k : dotBlk.contr.Idx) : (dotBlk.lhsIdx j k 0 : ℕ) = j 0 := by
  simp [DotDims.lhsIdx, dotBlk, dot_S4096x512_S512x64_S4096x64_1_0_0_1_n_n]; rfl
theorem lhs_dotBlk_1 (j : S4096x64.Idx) (k : dotBlk.contr.Idx) : (dotBlk.lhsIdx j k 1 : ℕ) = k ⟨0, by decide⟩ := by
  simp [DotDims.lhsIdx, dotBlk, dot_S4096x512_S512x64_S4096x64_1_0_0_1_n_n]; rfl
-- the right operand at the contracted feature and the result's column
theorem rhs_dotBlk_0 (j : S4096x64.Idx) (k : dotBlk.contr.Idx) : (dotBlk.rhsIdx j k 0 : ℕ) = k ⟨0, by decide⟩ := by
  simp [DotDims.rhsIdx, dotBlk, dot_S4096x512_S512x64_S4096x64_1_0_0_1_n_n]; rfl
theorem rhs_dotBlk_1 (j : S4096x64.Idx) (k : dotBlk.contr.Idx) : (dotBlk.rhsIdx j k 1 : ℕ) = j 1 := by
  simp [DotDims.rhsIdx, dotBlk, dot_S4096x512_S512x64_S4096x64_1_0_0_1_n_n]; rfl

/-- The zero offsets of a whole-block access. -/
theorem zeroOff : (![0, 0] : Fin 2 → Nat) = fun _ => 0 := funext fun a => by fin_cases a <;> rfl

/-- The block product at row p and cluster q of the block: the sum over the 512 features of the row's entry times the
    table's (the accumulator is the zero block, so nothing is added to the sum). -/
theorem blockProduct_apply (x0 : Vec Ideal S4096x512 .f32) (x1 : Vec Ideal S512x64 .f32) (p : Fin 4096) (q : Fin 64) :
    out0_2 x0 x1 (ix2 p q) = ∑ d : Fin 512, x0 (ix2 p d) * x1 (ix2 d q) := by
  unfold out0_2
  rw [View.canon_unit_zero zeroOff]
  simp only [View.ld_unit_zero (S := S4096x512) zeroOff, View.ld_unit_zero (S := S512x64) zeroOff]
  unfold k0_pay1
  rw [shapeCast_self]
  refine (Ideal.matmul_constant_zero_apply dotBlk none (x0 : FVec Ideal S4096x512 .f32) (x1 : FVec Ideal S512x64 .f32) (ix2 p q)).trans ?_
  -- the one contracted axis is the 512 features
  rw [← Equiv.sum_comp (contrEquiv1 dotBlk 512 rfl rfl).symm]
  refine Finset.sum_congr rfl fun d _ => ?_
  have cv := contrEquiv1_symm_val dotBlk 512 rfl rfl d
  -- the left operand is read at row p, feature d
  have hl : dotBlk.lhsIdx (ix2 p q) ((contrEquiv1 dotBlk 512 rfl rfl).symm d) = ix2 p d := by
    funext a; apply Fin.ext
    match a with
    | ⟨0, _⟩ => exact lhs_dotBlk_0 _ _
    | ⟨1, _⟩ => exact (lhs_dotBlk_1 _ _).trans cv
  -- the right operand at feature d, cluster q
  have hr : dotBlk.rhsIdx (ix2 p q) ((contrEquiv1 dotBlk 512 rfl rfl).symm d) = ix2 d q := by
    funext a; apply Fin.ext
    match a with
    | ⟨0, _⟩ => exact (rhs_dotBlk_0 _ _).trans cv
    | ⟨1, _⟩ => exact rhs_dotBlk_1 _ _
  rw [hl, hr]

/-- One block over coordinates: where the left block's row p is the rows' row r and the right block's column q is the
    table's column k, the block product at (p, q) is the score of row r against cluster k. -/
theorem blockScores (xf : FVec Ideal T65536x512 .f32) (cl : FVec Ideal T512x64 .f32)
    (x0 : Vec Ideal S4096x512 .f32) (x1 : Vec Ideal S512x64 .f32) (p : Fin 4096) (q : Fin 64) (r : Fin 65536) (k : Fin 64)
    (h0 : ∀ d : Fin 512, x0 (ix2 p d) = xf (ix2 r d))
    (h1 : ∀ d : Fin 512, x1 (ix2 d q) = cl (ix2 d k)) :
    out0_2 x0 x1 (ix2 p q) = scoresF xf cl (ix2 r k) := by
  rw [blockProduct_apply]
  show _ = ∑ d : Fin 512, xf (ix2 r d) * cl (ix2 d k)
  exact Finset.sum_congr rfl fun d _ => by rw [h0 d, h1 d]

/-- The same over whole indices: y in the block, i in the array. -/
theorem blockScores_at (xf : FVec Ideal T65536x512 .f32) (cl : FVec Ideal T512x64 .f32)
    (x0 : Vec Ideal S4096x512 .f32) (x1 : Vec Ideal S512x64 .f32) (y : S4096x64.Idx) (i : T65536x64.Idx)
    (h0 : ∀ d : Fin 512, x0 (ix2 (y 0) d) = xf (ix2 (i 0) d))
    (h1 : ∀ d : Fin 512, x1 (ix2 d (y 1)) = cl (ix2 d (i 1))) :
    out0_2 x0 x1 y = scoresF xf cl i := by
  obtain ⟨p, q, rfl⟩ : ∃ (p : Fin 4096) (q : Fin 64), y = ix2 p q := ⟨y 0, y 1, eq_ix2 y⟩
  obtain ⟨r, k, rfl⟩ : ∃ (r : Fin 65536) (k : Fin 64), i = ix2 r k := ⟨i 0, i 1, eq_ix2 i⟩
  exact blockScores xf cl x0 x1 p q r k h0 h1

/-! ## From the blocks to the array -/

-- the region's arrays as it finds them: any contents
variable (V : (c : Dev nD) → (b : Ref sig .tc) → Buf (Elt Ideal) ((c : Thread nD τ).loc b))

/-- The windows' index maps over the grid: point t reads row block t of the rows and the whole table, and writes row
    block t of the scores. -/
theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the scores of the arrays as the region finds them. A block's coordinate in
    its array is the block's index times the block's extent plus the coordinate inside the block. -/
theorem flushed_eq (c : Dev nD) (t : Fin cfg0.N) :
    (dat0 V c).flushed 2 t = ((cfg0.win 2).blk t).view.read (Elt Ideal) (scoresF (V c main_v0) (V c main_arg1)) := by
  show (cfg0.win 2).cut (grid0.coords t) ((dat0 V c).after 2 t) = _
  rw [after0_2]
  obtain ⟨e00, e01, e10, e11, e20, e21⟩ := blockIndex_facts t
  funext j
  show out0_2 (iblk0 V c 0 t) (iblk0 V c 1 t) j
      = scoresF (V c main_v0) (V c main_arg1) (((cfg0.win 2).blk t).view.emb j)
  refine blockScores_at (V c main_v0) (V c main_arg1) (iblk0 V c 0 t) (iblk0 V c 1 t) j (((cfg0.win 2).blk t).view.emb j) ?_ ?_
  · -- the left block's row (j 0), feature d, is the rows' array at row t·4096 + j 0, feature d
    intro d
    show V c main_v0 (((cfg0.win 0).blk t).view.emb (ix2 (j 0) d))
        = V c main_v0 (ix2 (((cfg0.win 2).blk t).view.emb j 0) d)
    refine congrArg (V c main_v0) ?_
    funext a; apply Fin.ext
    match a with
    | ⟨0, _⟩ =>
      show win0_0.index t (0 : Fin 2) * 4096 + 1 * (j 0).val = win0_2.index t (0 : Fin 2) * 4096 + 1 * (j 0).val
      omega
    | ⟨1, _⟩ =>
      show win0_0.index t (1 : Fin 2) * 512 + 1 * d.val = d.val
      omega
  · -- the right block is the whole table
    intro d
    show V c main_arg1 (((cfg0.win 1).blk t).view.emb (ix2 d (j 1)))
        = V c main_arg1 (ix2 d (((cfg0.win 2).blk t).view.emb j 1))
    refine congrArg (V c main_arg1) ?_
    funext a; apply Fin.ext
    match a with
    | ⟨0, _⟩ =>
      show win0_1.index t (0 : Fin 2) * 512 + 1 * d.val = d.val
      omega
    | ⟨1, _⟩ =>
      show win0_1.index t (1 : Fin 2) * 64 + 1 * (j 1).val = win0_2.index t (1 : Fin 2) * 64 + 1 * (j 1).val
      omega

/-- An index of the array is in point t's block iff each coordinate is in the block's range on its axis. -/
theorem mem_rowBlock (t : Fin cfg0.N) (i : S65536x64.Idx) :
    i ∈ ((cfg0.win 2).blk t).view.set ↔ ∀ a : Fin 2, win0_2.index t a * S4096x64.size a ≤ (i a).val
      ∧ (i a).val < win0_2.index t a * S4096x64.size a + S4096x64.size a := by
  show i ∈ ((View.whole main_v1).slice (win0_2.rect t)).set ↔ _
  rw [View.set_slice_whole, Rect.mem_set_unit]
  exact Iff.rfl

/-- The 16 row blocks tile the 65536 rows: row r lies in the block of point r / 4096. -/
theorem rows_covered (i : S65536x64.Idx) :
    ∃ t : Fin cfg0.N, (cfg0.win 2).flush t = true ∧ i ∈ ((cfg0.win 2).blk t).view.set := by
  have hi0 : (i 0).val < 65536 := (i 0).isLt
  have hi1 : (i 1).val < 64 := (i 1).isLt
  have hN : grid0.N = 16 := N_0
  have ht : (i 0).val / 4096 < grid0.N := by omega
  obtain ⟨-, -, -, -, e20, e21⟩ := blockIndex_facts ⟨(i 0).val / 4096, ht⟩
  have e20' : win0_2.index ⟨(i 0).val / 4096, ht⟩ (0 : Fin 2) = (i 0).val / 4096 := e20
  refine ⟨⟨(i 0).val / 4096, ht⟩, flush0_2 _, ?_⟩
  rw [mem_rowBlock]
  intro a
  match a with
  | ⟨0, _⟩ =>
    show win0_2.index ⟨(i 0).val / 4096, ht⟩ (0 : Fin 2) * 4096 ≤ (i 0).val
      ∧ (i 0).val < win0_2.index ⟨(i 0).val / 4096, ht⟩ (0 : Fin 2) * 4096 + 4096
    omega
  | ⟨1, _⟩ =>
    show win0_2.index ⟨(i 0).val / 4096, ht⟩ (1 : Fin 2) * 64 ≤ (i 1).val
      ∧ (i 1).val < win0_2.index ⟨(i 0).val / 4096, ht⟩ (1 : Fin 2) * 64 + 64
    omega

theorem region0_array (c : Dev nD) :
    ((dat0 V c).arrAt 2 cfg0.N : T65536x64.Idx → EReal)
      = scoresF (V c main_v0 : T65536x512.Idx → EReal) (V c main_arg1 : T512x64.Idx → EReal) :=
  -- every point writes back its block of the one function, and the blocks cover the array
  (dat0 V c).arrAt_eq_of_cover 2 (scoresF (V c main_v0) (V c main_arg1)) (fun t _ => flushed_eq V c t) rows_covered

end Cert.KernelIdeal.KVal0

end
-- ==== Proof.KPay2.lean ====
/-
  The second kernel's softmax payload read at an index: at row n and cluster k of a member's block it is the
  softmax of that row's batch-normalised scores.
-/
import proofs.«160465_j19688130085433_1_alg».proof.Proof.Gen.KernelIdeal.Skeleton
import proofs.«160465_j19688130085433_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KPay

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Vlad

/-! ## Two column layouts: a vector as a one-column matrix, and one column spread along the columns -/

section Cols
variable {α : Type}

/-- A vector of a entries cast to an a × 1 matrix reads, at (i, u), the vector at i: both sit at row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An a × 1 matrix broadcast to a × b reads, at (p, c), row p of its one column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cols

/-! ## The payload in three stages -/

/-- The batch-normalised scores as the payload forms them: the member's block with its unit axis dropped, centred by the
    mean row, scaled by the reciprocal root of the variance row plus epsilon, then the affine map by the gamma and beta rows. -/
def zArr (v0 : Vec Ideal S1x2048x64 .f32) (v2 v6 v13 v17 : Vec Ideal S1x64 .f32) : FVec Ideal S2048x64 .f32 :=
  addf
    (mulf
      (mulf
        (subf (shapeCast S2048x64 v0 shapeCasts_S1x2048x64_S2048x64)
          (broadcastTo S2048x64 (shapeCast S1x64 v2 shapeCasts_S1x64_S1x64) broadcasts_S1x64_S2048x64))
        (broadcastTo S2048x64
          (rsqrt (addf (shapeCast S1x64 v6 shapeCasts_S1x64_S1x64) (broadcast S1x64 (Scalar.ofBits (F := Ideal) .f32 0x3727C5AC#32))))
          broadcasts_S1x64_S2048x64))
      (broadcastTo S2048x64 (shapeCast S1x64 v13 shapeCasts_S1x64_S1x64) broadcasts_S1x64_S2048x64))
    (broadcastTo S2048x64 (shapeCast S1x64 v17 shapeCasts_S1x64_S1x64) broadcasts_S1x64_S2048x64)

/-- Each row's maximum: the fold of max over the 64 columns from -inf, joined with -inf once more. -/
def mxArr (z : FVec Ideal S2048x64 .f32) : FVec Ideal S2048 .f32 :=
  maximumf (broadcast S2048 (Scalar.ofBits (F := Ideal) .f32 0xFF800000#32))
    (multiReduction (F := Ideal) .maximumf [1] S2048 z 0xFF800000#32 reduces_S2048x64_S2048 (.inl rfl) rfl)

/-- The exponentials of the scores less their row's maximum. -/
def exArr (z : FVec Ideal S2048x64 .f32) : FVec Ideal S2048x64 .f32 :=
  exp (subf z (broadcastTo S2048x64 (shapeCast S2048x1 (mxArr z) shapeCasts_S2048_S2048x1) broadcasts_S2048x1_S2048x64))

/-- The exponentials divided by their row's sum. -/
def softArr (z : FVec Ideal S2048x64 .f32) : FVec Ideal S2048x64 .f32 :=
  divf (exArr z)
    (broadcastTo S2048x64
      (shapeCast S2048x1
        (multiReduction (F := Ideal) .add [1] S2048 (exArr z) 0x00000000#32 reduces_S2048x64_S2048 (.inl rfl) rfl)
        shapeCasts_S2048_S2048x1)
      broadcasts_S2048x1_S2048x64)

/-- The payload is the third stage applied to the first. -/
theorem pay2_eq_stages (v0 : Vec Ideal S1x2048x64 .f32) (v2 v6 v13 v17 : Vec Ideal S1x64 .f32) :
    k1_pay2 v0 v2 v6 v13 v17 = softArr (zArr v0 v2 v6 v13 v17) := rfl

/-! ## Each stage at an index -/

/-- The index a reduction over the columns inserts column k' into at row n is (n, k'). -/
theorem lift_row (n : Fin 2048) (k' : Fin 64) : reduces_S2048x64_S2048.lift (ix1 n) k' = ix2 n k' := by
  funext c
  match c with
  | ⟨0, _⟩ => rfl
  | ⟨1, _⟩ => rfl

/-- The normalised score at (n, k): every one-row operand is read at column k of its row 0. -/
theorem zArr_apply (v0 : Vec Ideal S1x2048x64 .f32) (v2 v6 v13 v17 : Vec Ideal S1x64 .f32) (n : Fin 2048) (k : Fin 64) :
    zArr v0 v2 v6 v13 v17 (ix2 n k)
      = zrow (fun k' => v0 (ix3 0 n k')) (fun k' => v2 (ix2 0 k')) (fun k' => v6 (ix2 0 k')) (fun k' => v13 (ix2 0 k'))
          (fun k' => v17 (ix2 0 k')) k := by
  unfold zArr zrow
  rw [addf_apply, mulf_apply, mulf_apply, subf_apply]
  rw [shapeCast_1ab_ab_apply, broadcastTo_1b_ab_apply, broadcastTo_1b_ab_apply, broadcastTo_1b_ab_apply,
    broadcastTo_1b_ab_apply]
  rw [shapeCast_self, shapeCast_self, shapeCast_self, shapeCast_self]
  rfl

/-- The row maximum at n. -/
theorem mxArr_apply (z : FVec Ideal S2048x64 .f32) (n : Fin 2048) : mxArr z (ix1 n) = rmax (fun k' => z (ix2 n k')) := by
  unfold mxArr rmax
  rw [maximumf_apply, broadcast_apply]
  refine congrArg (max _) ?_
  refine (Ideal.multiReduction_maximumf_single z 0xFF800000#32 reduces_S2048x64_S2048 (.inl rfl) rfl (ix1 n)).trans ?_
  refine congrArg (Finset.fold max _ · Finset.univ) ?_
  funext k'
  exact congrArg z (lift_row n k')

/-- An exponential at (n, k): the score there less its row's maximum. -/
theorem exArr_apply (z : FVec Ideal S2048x64 .f32) (n : Fin 2048) (k : Fin 64) :
    exArr z (ix2 n k) = Ideal.exp (z (ix2 n k) - rmax (fun k' => z (ix2 n k'))) := by
  unfold exArr
  show Ideal.exp (subf z _ (ix2 n k)) = _
  rw [subf_apply, broadcastTo_a1_ab_apply, shapeCast_a_a1_apply, mxArr_apply]

/-- The softmax at (n, k). -/
theorem softArr_apply (z : FVec Ideal S2048x64 .f32) (n : Fin 2048) (k : Fin 64) :
    softArr z (ix2 n k) = soft (fun k' => z (ix2 n k')) k := by
  unfold softArr soft
  rw [divf_apply, broadcastTo_a1_ab_apply, shapeCast_a_a1_apply, exArr_apply]
  refine congrArg (Ideal.div _) ?_
  refine (Ideal.multiReduction_add_single (exArr z) 0x00000000#32 reduces_S2048x64_S2048 (.inl rfl) rfl (ix1 n)).trans ?_
  refine Finset.sum_congr rfl fun k' _ => ?_
  exact (congrArg (exArr z) (lift_row n k')).trans (exArr_apply z n k')

theorem pay2_apply (v0 : Vec Ideal S1x2048x64 .f32) (v2 v6 v13 v17 : Vec Ideal S1x64 .f32) (n : Fin 2048) (k : Fin 64) :
    k1_pay2 v0 v2 v6 v13 v17 (ix2 n k)
      = soft (zrow (fun k' => v0 (ix3 0 n k')) (fun k' => v2 (ix2 0 k')) (fun k' => v6 (ix2 0 k')) (fun k' => v13 (ix2 0 k'))
          (fun k' => v17 (ix2 0 k'))) k := by
  rw [pay2_eq_stages, softArr_apply]
  exact congrArg (fun z => soft z k) (funext fun k' => zArr_apply v0 v2 v6 v13 v17 n k')

end Cert.KernelIdeal.KPay

end
-- ==== Proof.KPayNorm.lean ====
/-
  The second kernel's last payload read at an index: the rows' transpose times the assignment (a contraction over
  the 2048 rows) less the given term, divided by its column norm over the 512 features floored at eps₂.
-/
import proofs.«160465_j19688130085433_1_alg».proof.Proof.Gen.KernelIdeal.Skeleton
import proofs.«160465_j19688130085433_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KPayNorm

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Vlad

/-! ## The product's operand indices, axis by axis: the rows axis (axis 0 of both operands) is contracted -/

theorem lhs_dot_0 (j : S512x64.Idx) (q : dot_S2048x512_S2048x64_S512x64_0_0_1_1_n_n.contr.Idx) :
    (dot_S2048x512_S2048x64_S512x64_0_0_1_1_n_n.lhsIdx j q 0).val = (q ⟨0, by decide⟩).val :=
  DotDims.lhsIdx_val_of_single dot_S2048x512_S2048x64_S512x64_0_0_1_1_n_n rfl j q

theorem lhs_dot_1 (d : Fin 512) (k : Fin 64) (q : dot_S2048x512_S2048x64_S512x64_0_0_1_1_n_n.contr.Idx) :
    (dot_S2048x512_S2048x64_S512x64_0_0_1_1_n_n.lhsIdx (ix2 d k) q 1).val = d.val := by
  unfold DotDims.lhsIdx
  rw [dif_neg (show ¬ (1 : Fin S2048x512.rank) ∈ dot_S2048x512_S2048x64_S512x64_0_0_1_1_n_n.lhsBatch by decide),
    dif_pos (show (1 : Fin S2048x512.rank) ∈ dot_S2048x512_S2048x64_S512x64_0_0_1_1_n_n.lhsNonContracting by decide)]
  rfl

theorem rhs_dot_0 (j : S512x64.Idx) (q : dot_S2048x512_S2048x64_S512x64_0_0_1_1_n_n.contr.Idx) :
    (dot_S2048x512_S2048x64_S512x64_0_0_1_1_n_n.rhsIdx j q 0).val = (q ⟨0, by decide⟩).val :=
  DotDims.rhsIdx_val_of_single dot_S2048x512_S2048x64_S512x64_0_0_1_1_n_n rfl j q

theorem rhs_dot_1 (d : Fin 512) (k : Fin 64) (q : dot_S2048x512_S2048x64_S512x64_0_0_1_1_n_n.contr.Idx) :
    (dot_S2048x512_S2048x64_S512x64_0_0_1_1_n_n.rhsIdx (ix2 d k) q 1).val = k.val := by
  unfold DotDims.rhsIdx
  rw [dif_neg (show ¬ (1 : Fin S2048x64.rank) ∈ dot_S2048x512_S2048x64_S512x64_0_0_1_1_n_n.rhsBatch by decide),
    dif_pos (show (1 : Fin S2048x64.rank) ∈ dot_S2048x512_S2048x64_S512x64_0_0_1_1_n_n.rhsNonContracting by decide)]
  rfl

/-- The rows-contracted product into the zero splat, at feature d and cluster k: the sum over the 2048 rows. -/
theorem mm_apply (A : FVec Ideal S2048x512 .f32) (B : FVec Ideal S2048x64 .f32) (d : Fin 512) (k : Fin 64) :
    matmul dot_S2048x512_S2048x64_S512x64_0_0_1_1_n_n none A B (constant (F := Ideal) S512x64 .f32 0x00000000#32) (ix2 d k)
      = ∑ n : Fin 2048, A (ix2 n d) * B (ix2 n k) := by
  show FloatOps.matmul dot_S2048x512_S2048x64_S512x64_0_0_1_1_n_n none A B _ (ix2 d k) = _
  rw [Ideal.matmul_constant_zero_apply,
    ← Equiv.sum_comp (contrEquiv1 dot_S2048x512_S2048x64_S512x64_0_0_1_1_n_n 2048 rfl rfl).symm]
  refine Finset.sum_congr rfl fun n _ => ?_
  have c := contrEquiv1_symm_val dot_S2048x512_S2048x64_S512x64_0_0_1_1_n_n 2048 rfl rfl n
  have l : dot_S2048x512_S2048x64_S512x64_0_0_1_1_n_n.lhsIdx (ix2 d k)
      ((contrEquiv1 dot_S2048x512_S2048x64_S512x64_0_0_1_1_n_n 2048 rfl rfl).symm n) = ix2 n d := by
    funext ax; apply Fin.ext
    match ax with
    | ⟨0, _⟩ => exact (lhs_dot_0 _ _).trans c
    | ⟨1, _⟩ => exact lhs_dot_1 _ _ _
  have r : dot_S2048x512_S2048x64_S512x64_0_0_1_1_n_n.rhsIdx (ix2 d k)
      ((contrEquiv1 dot_S2048x512_S2048x64_S512x64_0_0_1_1_n_n 2048 rfl rfl).symm n) = ix2 n k := by
    funext ax; apply Fin.ext
    match ax with
    | ⟨0, _⟩ => exact (rhs_dot_0 _ _).trans c
    | ⟨1, _⟩ => exact rhs_dot_1 _ _ _
  rw [l, r]

/-! ## The column norm -/

/-- The sum over the 512 features of a [512, 64] array, at cluster k: the index inserted on the dropped axis is (d', k). -/
theorem colsum_apply (W : FVec Ideal S512x64 .f32) (k : Fin 64) :
    multiReduction (F := Ideal) .add [0] S64 W 0x00000000#32 reduces_S512x64_S64 (.inl rfl) rfl (ix1 k)
      = ∑ d' : Fin 512, W (ix2 d' k) := by
  refine (Ideal.multiReduction_add_single W 0x00000000#32 reduces_S512x64_S64 (.inl rfl) rfl (ix1 k)).trans ?_
  refine Finset.sum_congr rfl fun d' _ => congrArg W ?_
  funext ax; apply Fin.ext
  match ax with
  | ⟨0, _⟩ => rfl
  | ⟨1, _⟩ => rfl

/-- An array divided by its columns' Euclidean norms floored at eps₂ (the norm kept as one row and laid along the 512
    features), viewed with a leading unit axis: at (0, d, k) it is the column normalisation of the array's entries. -/
theorem normed_apply (W : FVec Ideal S512x64 .f32) (d : Fin 512) (k : Fin 64) :
    shapeCast S1x512x64
        (divf W (broadcastTo S512x64
          (maximumf
            (sqrt (shapeCast S1x64
              (multiReduction (F := Ideal) .add [0] S64 (mulf W W) 0x00000000#32 reduces_S512x64_S64 (.inl rfl) rfl)
              shapeCasts_S64_S1x64))
            (broadcast S1x64 (Scalar.ofBits .f32 0x2B8CBCCC#32)))
          broadcasts_S1x64_S512x64))
        shapeCasts_S512x64_S1x512x64 (ix3 0 d k)
      = colnorm (fun d' k' => W (ix2 d' k')) d k := by
  rw [shapeCast_ab_1ab_apply, divf_apply, broadcastTo_1b_ab_apply, maximumf_apply, broadcast_apply]
  show Ideal.div (W (ix2 d k))
      (max (Ideal.sqrt (shapeCast S1x64 (multiReduction (F := Ideal) .add [0] S64 (mulf W W) 0x00000000#32
        reduces_S512x64_S64 (.inl rfl) rfl) shapeCasts_S64_S1x64 (ix2 0 k))) (Ideal.ofBits .f32 0x2B8CBCCC#32)) = _
  rw [shapeCast_a_1a_apply, colsum_apply]
  rfl

/-! ## The payload -/

theorem pay1_apply (v31 : FVec Ideal S2048x64 .f32) (v37 : FVec Ideal S512x64 .f32) (v38 : Vec Ideal S1x2048x512 .f32)
    (d : Fin 512) (k : Fin 64) :
    k1_pay1 v31 v37 v38 (ix3 0 d k)
      = colnorm (fun d' k' => (∑ n : Fin 2048, v38 (ix3 0 n d') * v31 (ix2 n k')) - v37 (ix2 d' k')) d k := by
  -- the array the norm is taken of, entry by entry: the product over the rows less the given term
  have hW : ∀ (d' : Fin 512) (k' : Fin 64),
      subf (matmul dot_S2048x512_S2048x64_S512x64_0_0_1_1_n_n none
          (shapeCast S2048x512 v38 shapeCasts_S1x2048x512_S2048x512 : FVec Ideal S2048x512 .f32) v31
          (constant (F := Ideal) S512x64 .f32 0x00000000#32)) v37 (ix2 d' k')
        = (∑ n : Fin 2048, v38 (ix3 0 n d') * v31 (ix2 n k')) - v37 (ix2 d' k') := by
    intro d' k'
    rw [subf_apply, mm_apply]
    simp only [shapeCast_1ab_ab_apply]
  unfold k1_pay1
  refine (normed_apply _ d k).trans ?_
  exact congrArg (fun w => colnorm w d k) (funext fun d' => funext fun k' => hW d' k')

end Cert.KernelIdeal.KPayNorm

end
-- ==== Proof.KPay1.lean ====
/-
  The second kernel's other two payloads read at an index — the total assignment times the second table, and the
  column-normalised residual — and with them what the body leaves in the output block: the specification's value
  of one member from the seven input blocks.
-/
import proofs.«160465_j19688130085433_1_alg».proof.Proof.Gen.KernelIdeal.Frame
import proofs.«160465_j19688130085433_1_alg».proof.Proof.KPay2
import proofs.«160465_j19688130085433_1_alg».proof.Proof.KPayNorm

set_option maxRecDepth 16384

noncomputable section

open scoped BigOperators

namespace Cert.KernelIdeal.KPay

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Vlad

/-- The sum down the 2048 rows of a [2048, 64] block, read at cluster k: the inserted index on the summed axis is
    (n, k). The accumulator's pattern is the zero pattern itself. -/
theorem rowsum_apply (P : FVec Ideal S2048x64 .f32) (hφ : FKind.Formats .f32)
    (hacc : (0x00000000#32 : BitVec 32) = 0x00000000#32) (k : Fin 64) :
    multiReduction (F := Ideal) .add [0] S64 P 0x00000000#32 reduces_S2048x64_S64 hφ hacc (ix1 k)
      = ∑ n : Fin 2048, P (ix2 n k) := by
  refine (Ideal.multiReduction_add_single P 0x00000000#32 reduces_S2048x64_S64 hφ hacc (ix1 k)).trans ?_
  refine Finset.sum_congr rfl fun n _ => congrArg P ?_
  funext a
  match a with
  | ⟨0, _⟩ => rfl
  | ⟨1, _⟩ => rfl

theorem pay3_apply (v0 : Vec Ideal S1x2048x64 .f32) (v2 v6 v13 v17 : Vec Ideal S1x64 .f32) (v34 : Vec Ideal S1x512x64 .f32)
    (d : Fin 512) (k : Fin 64) :
    k1_pay3 v0 v2 v6 v13 v17 v34 (ix2 d k) = (∑ n : Fin 2048, k1_pay2 v0 v2 v6 v13 v17 (ix2 n k)) * v34 (ix3 0 d k) := by
  unfold k1_pay3
  -- the product at (d, k); its left factor is the one row of column sums read at k, its right factor the table at (0, d, k)
  rw [mulf_apply, broadcastTo_1b_ab_apply, shapeCast_a_1a_apply, shapeCast_1ab_ab_apply]
  exact congrArg (· * v34 (ix3 0 d k)) (rowsum_apply _ _ _ k)

theorem pay1_apply (v31 : FVec Ideal S2048x64 .f32) (v37 : FVec Ideal S512x64 .f32) (v38 : Vec Ideal S1x2048x512 .f32)
    (d : Fin 512) (k : Fin 64) :
    k1_pay1 v31 v37 v38 (ix3 0 d k)
      = colnorm (fun d' k' => (∑ n : Fin 2048, v38 (ix3 0 n d') * v31 (ix2 n k')) - v37 (ix2 d' k')) d k :=
  KPayNorm.pay1_apply v31 v37 v38 d k

theorem out1_7_apply (x0 : Vec Ideal S1x2048x512 .f32) (x1 : Vec Ideal S1x2048x64 .f32) (x2 : Vec Ideal S1x512x64 .f32)
    (x3 x4 x5 x6 : Vec Ideal S1x64 .f32) (d : Fin 512) (k : Fin 64) :
    out1_7 x0 x1 x2 x3 x4 x5 x6 (ix3 0 d k)
      = vladBlock (fun n d' => x0 (ix3 0 n d')) (fun n k' => x1 (ix3 0 n k')) (fun k' => x3 (ix2 0 k')) (fun k' => x4 (ix2 0 k'))
          (fun k' => x5 (ix2 0 k')) (fun k' => x6 (ix2 0 k')) (fun d' k' => x2 (ix3 0 d' k')) d k := by
  -- every access of the body is through the whole block at zero offsets
  have hz3 : (![0, 0, 0] : Fin 3 → ℕ) = fun _ => 0 := by
    funext a; match a with | ⟨0, _⟩ => rfl | ⟨1, _⟩ => rfl | ⟨2, _⟩ => rfl
  have hz2 : (![0, 0] : Fin 2 → ℕ) = fun _ => 0 := by
    funext a; match a with | ⟨0, _⟩ => rfl | ⟨1, _⟩ => rfl
  unfold out1_7
  -- the one store leaves its payload; each load reads its block
  rw [View.canon_unit_zero hz3]
  simp only [View.ld_unit_zero (S := S1x2048x64) hz3, View.ld_unit_zero (S := S1x64) hz2,
    View.ld_unit_zero (S := S1x512x64) hz3, View.ld_unit_zero (S := S1x2048x512) hz3]
  -- the payload is the column normalisation of the rows-contracted product less the third payload
  rw [pay1_apply]
  unfold vladBlock
  refine congrArg (fun w => colnorm w d k) ?_
  funext d' k'
  -- the third payload is the total assignment times the second table, the second payload the softmax of the row's score
  rw [pay3_apply]
  simp only [pay2_apply]
  rfl

end Cert.KernelIdeal.KPay

end
-- ==== Proof.KVal1.lean ====
/-
  The second kernel's result array: grid point b reads member b's rows and raw scores and the shared parameters
  whole, and writes member b's 512 x 64 block back; the 32 blocks tile the array, so after the region it holds the
  specification's value at every member, feature and cluster.
-/
import proofs.«160465_j19688130085433_1_alg».proof.Proof.Gen.KernelIdeal.Frame
import proofs.«160465_j19688130085433_1_alg».proof.Proof.KPay1
import Idealize.ShloMosaic.Lib.Pipeline.Value

set_option maxRecDepth 16384

noncomputable section

open scoped BigOperators

namespace Cert.KernelIdeal.KVal1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Vlad

-- the region's arrays as it finds them: any contents
variable (V : (c : Dev nD) → (b : Ref sig .tc) → Buf (Elt Ideal) ((c : Thread nD τ).loc b))

/-! ## Where each window's block sits -/

/-- The block indices at grid point t, axis by axis: the rows, the raw scores and the result move with t along the
    member axis and stay at 0 on the other two; the second table and the four parameter rows stay at block 0. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) = t.val ∧ win1_7.index t (1 : Fin 3) = 0 ∧ win1_7.index t (2 : Fin 3) = 0 :=
  (by decide +kernel : ∀ t : Fin grid1.N, _)

/-! ## The seven input blocks at grid point t, entry by entry

An entry of a block sits in its array, on each axis, at the block index times the block's extent plus its own coordinate. -/

/-- Member t's rows: entry (0, n, d) of the first block is the row array at (t, n, d). -/
theorem rows_block (c : Dev nD) (t : Fin cfg1.N) (b : Fin 32) (hb : b.val = t.val) (n : Fin 2048) (d : Fin 512) :
    (iblk1 V c 0 t : Vec Ideal S1x2048x512 .f32) (ix3 0 n d) = (V c main_arg0 : T32x2048x512.Idx → EReal) (ix3 b n d) := by
  obtain ⟨e0, e1, e2, -⟩ := idx_facts t
  show V c main_arg0 (((cfg1.win 0).blk t).view.emb (ix3 0 n d)) = V c main_arg0 (ix3 b n d)
  refine congrArg _ ?_
  funext a; apply Fin.ext
  match a with
  | ⟨0, _⟩ => show win1_0.index t (0 : Fin 3) * 1 + 1 * 0 = b.val; rw [e0, hb]; omega
  | ⟨1, _⟩ => show win1_0.index t (1 : Fin 3) * 2048 + 1 * n.val = n.val; rw [e1]; omega
  | ⟨2, _⟩ => show win1_0.index t (2 : Fin 3) * 512 + 1 * d.val = d.val; rw [e2]; omega

/-- Member t's raw scores: entry (0, n, k) of the second block is the score array at (t, n, k). -/
theorem scores_block (c : Dev nD) (t : Fin cfg1.N) (b : Fin 32) (hb : b.val = t.val) (n : Fin 2048) (k : Fin 64) :
    (iblk1 V c 1 t : Vec Ideal S1x2048x64 .f32) (ix3 0 n k) = (V c main_v6 : T32x2048x64.Idx → EReal) (ix3 b n k) := by
  obtain ⟨-, -, -, e0, e1, e2, -⟩ := idx_facts t
  show V c main_v6 (((cfg1.win 1).blk t).view.emb (ix3 0 n k)) = V c main_v6 (ix3 b n k)
  refine congrArg _ ?_
  funext a; apply Fin.ext
  match a with
  | ⟨0, _⟩ => show win1_1.index t (0 : Fin 3) * 1 + 1 * 0 = b.val; rw [e0, hb]; omega
  | ⟨1, _⟩ => show win1_1.index t (1 : Fin 3) * 2048 + 1 * n.val = n.val; rw [e1]; omega
  | ⟨2, _⟩ => show win1_1.index t (2 : Fin 3) * 64 + 1 * k.val = k.val; rw [e2]; omega

/-- The second cluster table is read whole at every grid point. -/
theorem table_block (c : Dev nD) (t : Fin cfg1.N) (d : Fin 512) (k : Fin 64) :
    (iblk1 V c 2 t : Vec Ideal S1x512x64 .f32) (ix3 0 d k) = (V c main_arg2 : T1x512x64.Idx → EReal) (ix3 0 d k) := by
  obtain ⟨-, -, -, -, -, -, e0, e1, e2, -⟩ := idx_facts t
  show V c main_arg2 (((cfg1.win 2).blk t).view.emb (ix3 0 d k)) = V c main_arg2 (ix3 0 d k)
  refine congrArg _ ?_
  funext a; apply Fin.ext
  match a with
  | ⟨0, _⟩ => show win1_2.index t (0 : Fin 3) * 1 + 1 * 0 = 0; rw [e0]
  | ⟨1, _⟩ => show win1_2.index t (1 : Fin 3) * 512 + 1 * d.val = d.val; rw [e1]; omega
  | ⟨2, _⟩ => show win1_2.index t (2 : Fin 3) * 64 + 1 * k.val = k.val; rw [e2]; omega

/-- The row of means is read whole at every grid point. -/
theorem mean_block (c : Dev nD) (t : Fin cfg1.N) (k : Fin 64) :
    (iblk1 V c 3 t : Vec Ideal S1x64 .f32) (ix2 0 k) = (V c main_v7 : T1x64.Idx → EReal) (ix2 0 k) := by
  obtain ⟨-, -, -, -, -, -, -, -, -, e0, e1, -⟩ := idx_facts t
  show V c main_v7 (((cfg1.win 3).blk t).view.emb (ix2 0 k)) = V c main_v7 (ix2 0 k)
  refine congrArg _ ?_
  funext a; apply Fin.ext
  match a with
  | ⟨0, _⟩ => show win1_3.index t (0 : Fin 2) * 1 + 1 * 0 = 0; rw [e0]
  | ⟨1, _⟩ => show win1_3.index t (1 : Fin 2) * 64 + 1 * k.val = k.val; rw [e1]; omega

/-- The row of variances is read whole at every grid point. -/
theorem var_block (c : Dev nD) (t : Fin cfg1.N) (k : Fin 64) :
    (iblk1 V c 4 t : Vec Ideal S1x64 .f32) (ix2 0 k) = (V c main_v8 : T1x64.Idx → EReal) (ix2 0 k) := by
  obtain ⟨-, -, -, -, -, -, -, -, -, -, -, e0, e1, -⟩ := idx_facts t
  show V c main_v8 (((cfg1.win 4).blk t).view.emb (ix2 0 k)) = V c main_v8 (ix2 0 k)
  refine congrArg _ ?_
  funext a; apply Fin.ext
  match a with
  | ⟨0, _⟩ => show win1_4.index t (0 : Fin 2) * 1 + 1 * 0 = 0; rw [e0]
  | ⟨1, _⟩ => show win1_4.index t (1 : Fin 2) * 64 + 1 * k.val = k.val; rw [e1]; omega

/-- The row of scales is read whole at every grid point. -/
theorem scale_block (c : Dev nD) (t : Fin cfg1.N) (k : Fin 64) :
    (iblk1 V c 5 t : Vec Ideal S1x64 .f32) (ix2 0 k) = (V c main_v9 : T1x64.Idx → EReal) (ix2 0 k) := by
  obtain ⟨-, -, -, -, -, -, -, -, -, -, -, -, -, e0, e1, -⟩ := idx_facts t
  show V c main_v9 (((cfg1.win 5).blk t).view.emb (ix2 0 k)) = V c main_v9 (ix2 0 k)
  refine congrArg _ ?_
  funext a; apply Fin.ext
  match a with
  | ⟨0, _⟩ => show win1_5.index t (0 : Fin 2) * 1 + 1 * 0 = 0; rw [e0]
  | ⟨1, _⟩ => show win1_5.index t (1 : Fin 2) * 64 + 1 * k.val = k.val; rw [e1]; omega

/-- The row of shifts is read whole at every grid point. -/
theorem shift_block (c : Dev nD) (t : Fin cfg1.N) (k : Fin 64) :
    (iblk1 V c 6 t : Vec Ideal S1x64 .f32) (ix2 0 k) = (V c main_v10 : T1x64.Idx → EReal) (ix2 0 k) := by
  obtain ⟨-, -, -, -, -, -, -, -, -, -, -, -, -, -, -, e0, e1, -⟩ := idx_facts t
  show V c main_v10 (((cfg1.win 6).blk t).view.emb (ix2 0 k)) = V c main_v10 (ix2 0 k)
  refine congrArg _ ?_
  funext a; apply Fin.ext
  match a with
  | ⟨0, _⟩ => show win1_6.index t (0 : Fin 2) * 1 + 1 * 0 = 0; rw [e0]
  | ⟨1, _⟩ => show win1_6.index t (1 : Fin 2) * 64 + 1 * k.val = k.val; rw [e1]; omega

/-! ## One member's block of the result -/

/-- The body's result from blocks that are member b's rows and raw scores and the shared parameters read whole is the
    specification's value at member b: both sides are the one member's function of the same seven families of entries. -/
theorem member_value (x0 : Vec Ideal S1x2048x512 .f32) (x1 : Vec Ideal S1x2048x64 .f32) (x2 : Vec Ideal S1x512x64 .f32)
    (x3 x4 x5 x6 : Vec Ideal S1x64 .f32)
    (A0 : T32x2048x512.Idx → EReal) (A1 : T32x2048x64.Idx → EReal) (A2 : T1x512x64.Idx → EReal)
    (A3 A4 A5 A6 : T1x64.Idx → EReal) (b : Fin 32)
    (h0 : ∀ (n : Fin 2048) (d : Fin 512), x0 (ix3 0 n d) = A0 (ix3 b n d))
    (h1 : ∀ (n : Fin 2048) (k : Fin 64), x1 (ix3 0 n k) = A1 (ix3 b n k))
    (h2 : ∀ (d : Fin 512) (k : Fin 64), x2 (ix3 0 d k) = A2 (ix3 0 d k))
    (h3 : ∀ k : Fin 64, x3 (ix2 0 k) = A3 (ix2 0 k)) (h4 : ∀ k : Fin 64, x4 (ix2 0 k) = A4 (ix2 0 k))
    (h5 : ∀ k : Fin 64, x5 (ix2 0 k) = A5 (ix2 0 k)) (h6 : ∀ k : Fin 64, x6 (ix2 0 k) = A6 (ix2 0 k))
    (d : Fin 512) (k : Fin 64) :
    out1_7 x0 x1 x2 x3 x4 x5 x6 (ix3 0 d k) = OarrK A0 A1 A2 A3 A4 A5 A6 (ix3 b d k) := by
  rw [KPay.out1_7_apply]
  show _ = oAtK A0 A1 A2 A3 A4 A5 A6 b d k
  unfold oAtK
  simp only [h0, h1, h2, h3, h4, h5, h6]

/-- The specification's array of the arrays as the region finds them. -/
abbrev specArray (c : Dev nD) : T32x512x64.Idx → EReal :=
  OarrK (V c main_arg0 : T32x2048x512.Idx → EReal) (V c main_v6 : T32x2048x64.Idx → EReal)
    (V c main_arg2 : T1x512x64.Idx → EReal) (V c main_v7 : T1x64.Idx → EReal) (V c main_v8 : T1x64.Idx → EReal)
    (V c main_v9 : T1x64.Idx → EReal) (V c main_v10 : T1x64.Idx → EReal)

/-- What grid point t writes back is block t of the specification's array: entry (0, d, k) of the block is the body's
    result from member t's blocks, and sits in the array at (t, d, k). -/
theorem flushed_eq (c : Dev nD) (t : Fin cfg1.N) :
    (dat1 V c).flushed 7 t = ((cfg1.win 7).blk t).view.read (Elt Ideal) (specArray V c) := by
  show (cfg1.win 7).cut (grid1.coords t) ((dat1 V c).after 7 t) = _
  rw [after1_7]
  obtain ⟨-, -, -, -, -, -, -, -, -, -, -, -, -, -, -, -, -, e0, e1, e2⟩ := idx_facts t
  have hN : cfg1.N = 32 := N_1
  have ht : t.val < 32 := by have := t.isLt; omega
  funext y
  have h0 : (y 0).val < 1 := (y 0).isLt
  have h1 : (y 1).val < 512 := (y 1).isLt
  have h2 : (y 2).val < 64 := (y 2).isLt
  -- the entry's place in the block: its first coordinate is 0
  have ey : (cfg1.win 7).xinj (grid1.coords t) y
      = (ix3 (0 : Fin 1) (⟨(y 1).val, h1⟩ : Fin 512) (⟨(y 2).val, h2⟩ : Fin 64) : S1x512x64.Idx) := by
    funext a; apply Fin.ext
    match a with
    | ⟨0, _⟩ => show (y 0).val = 0; omega
    | ⟨1, _⟩ => rfl
    | ⟨2, _⟩ => rfl
  -- and its place in the array: member t, the same feature and cluster
  have ei : ((cfg1.win 7).blk t).view.emb y
      = (ix3 (⟨t.val, ht⟩ : Fin 32) (⟨(y 1).val, h1⟩ : Fin 512) (⟨(y 2).val, h2⟩ : Fin 64) : T32x512x64.Idx) := by
    funext a; apply Fin.ext
    match a with
    | ⟨0, _⟩ => show win1_7.index t (0 : Fin 3) * 1 + 1 * (y 0).val = t.val; rw [e0]; omega
    | ⟨1, _⟩ => show win1_7.index t (1 : Fin 3) * 512 + 1 * (y 1).val = (y 1).val; rw [e1]; omega
    | ⟨2, _⟩ => show win1_7.index t (2 : Fin 3) * 64 + 1 * (y 2).val = (y 2).val; rw [e2]; omega
  have er : ((cfg1.win 7).blk t).view.read (Elt Ideal) (specArray V c) y
      = specArray V c (((cfg1.win 7).blk t).view.emb y) := rfl
  refine (congrArg _ ey).trans (Eq.trans ?_ ((congrArg (specArray V c) ei.symm).trans er.symm))
  exact member_value (iblk1 V c 0 t) (iblk1 V c 1 t) (iblk1 V c 2 t) (iblk1 V c 3 t) (iblk1 V c 4 t) (iblk1 V c 5 t) (iblk1 V c 6 t)
    (V c main_arg0) (V c main_v6) (V c main_arg2) (V c main_v7) (V c main_v8) (V c main_v9) (V c main_v10) ⟨t.val, ht⟩
    (fun n d => rows_block V c t ⟨t.val, ht⟩ rfl n d) (fun n k => scores_block V c t ⟨t.val, ht⟩ rfl n k)
    (fun d k => table_block V c t d k) (fun k => mean_block V c t k) (fun k => var_block V c t k)
    (fun k => scale_block V c t k) (fun k => shift_block V c t k) ⟨(y 1).val, h1⟩ ⟨(y 2).val, h2⟩

/-! ## The 32 blocks tile the result array -/

/-- An index of the result array is in grid point t's block iff each coordinate is in the block's range on its axis. -/
theorem mem_blk (t : Fin cfg1.N) (i : T32x512x64.Idx) :
    i ∈ ((cfg1.win 7).blk t).view.set ↔ ∀ a : Fin 3, win1_7.index t a * S1x512x64.size a ≤ (i a).val ∧ (i a).val < win1_7.index t a * S1x512x64.size a + S1x512x64.size a := by
  show i ∈ ((View.whole main_v11).slice (win1_7.rect t)).set ↔ _
  rw [View.set_slice_whole, Rect.mem_set_unit]
  exact Iff.rfl

/-- Entry (b, d, k) is in grid point b's block, and every grid point writes its block back. -/
theorem covered (i : T32x512x64.Idx) :
    ∃ t : Fin cfg1.N, (cfg1.win 7).flush t = true ∧ i ∈ ((cfg1.win 7).blk t).view.set := by
  have hN : cfg1.N = 32 := N_1
  have hi0 : (i 0).val < 32 := (i 0).isLt
  have hi1 : (i 1).val < 512 := (i 1).isLt
  have hi2 : (i 2).val < 64 := (i 2).isLt
  obtain ⟨t, ht⟩ : ∃ t : Fin cfg1.N, t.val = (i 0).val := ⟨⟨(i 0).val, by omega⟩, rfl⟩
  obtain ⟨-, -, -, -, -, -, -, -, -, -, -, -, -, -, -, -, -, e0, e1, e2⟩ := idx_facts t
  refine ⟨t, flush1_7 t, ?_⟩
  rw [mem_blk]
  intro a
  match a with
  | ⟨0, _⟩ => show win1_7.index t (0 : Fin 3) * 1 ≤ (i 0).val ∧ (i 0).val < win1_7.index t (0 : Fin 3) * 1 + 1; rw [e0]; omega
  | ⟨1, _⟩ => show win1_7.index t (1 : Fin 3) * 512 ≤ (i 1).val ∧ (i 1).val < win1_7.index t (1 : Fin 3) * 512 + 512; rw [e1]; omega
  | ⟨2, _⟩ => show win1_7.index t (2 : Fin 3) * 64 ≤ (i 2).val ∧ (i 2).val < win1_7.index t (2 : Fin 3) * 64 + 64; rw [e2]; omega

/-! ## The array after the region -/

theorem region1_array (c : Dev nD) :
    ((dat1 V c).arrAt 7 cfg1.N : T32x512x64.Idx → EReal)
      = OarrK (V c main_arg0 : T32x2048x512.Idx → EReal) (V c main_v6 : T32x2048x64.Idx → EReal)
          (V c main_arg2 : T1x512x64.Idx → EReal) (V c main_v7 : T1x64.Idx → EReal) (V c main_v8 : T1x64.Idx → EReal)
          (V c main_v9 : T1x64.Idx → EReal) (V c main_v10 : T1x64.Idx → EReal) :=
  (dat1 V c).arrAt_eq_of_cover 7 (specArray V c) (fun t _ => flushed_eq V c t) covered

end Cert.KernelIdeal.KVal1

end
-- ==== Proof.KHost.lean ====
/-
  The kernel program's host stretches read back: the rows flattened before the first kernel; after it the mean and
  the variance of the raw scores over all rows, and the reshapes that put the scores member by member and the four
  parameter vectors as one-row matrices before the second kernel; after that the final normalisation of each
  member's row. Each buffer the second kernel's windows are cut from is named as a function of the launch contents
  and of the first kernel's result array.
-/
import proofs.«160465_j19688130085433_1_alg».proof.Proof.Gen.KernelIdeal.Frame
import proofs.«160465_j19688130085433_1_alg».proof.Proof.Shared
import proofs.«160465_j19688130085433_1_alg».proof.Proof.KVal0
import proofs.«160465_j19688130085433_1_alg».proof.Proof.KVal1
import Idealize.ShloMosaic.Lib.StableHlo.Run

set_option maxRecDepth 16384

noncomputable section

open scoped BigOperators

namespace Cert.KernelIdeal.KHost

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Vlad

open Idealize.ShloMosaic.StableHlo

variable (m : (ℓ : Loc nD τ sig) → Buf (Elt Ideal) ℓ) (ρ : Dev nD → PrngReg)

/-! ## Before the first kernel -/

theorem W1_v0 (c : Dev nD) :
    (W1 m ρ c (Proc.devRef .tc main_v0) : T65536x512.Idx → EReal)
      = shapeCast T65536x512 (m ((c.tc : Thread nD τ).loc main_arg0) : T32x2048x512.Idx → EReal) sc_x_flat := by
  show StableHlo.after hostOps0 (W0 m ρ c) (Proc.devRef .tc main_v0) = _
  after_results
  rfl

theorem W1_arg (c : Dev nD) (b : Ref sig .tc) (hb : b ≠ main_v0) :
    W1 m ρ c (Proc.devRef .tc b) = m ((c.tc : Thread nD τ).loc b) := by
  show StableHlo.after hostOps0 (W0 m ρ c) (Proc.devRef .tc b) = _
  simp only [hostOps0, after_cons, after_nil]
  rw [reshape_result_ne (h := hb)]

/-! ## The first kernel's array and the arguments past it -/

theorem W2_v1 (c : Dev nD) :
    (W2 m ρ c (Proc.devRef .tc main_v1) : T65536x64.Idx → EReal)
      = scoresF (shapeCast T65536x512 (m ((c.tc : Thread nD τ).loc main_arg0) : T32x2048x512.Idx → EReal) sc_x_flat)
          (m ((c.tc : Thread nD τ).loc main_arg1) : T512x64.Idx → EReal) := by
  refine (W2_arr m ρ c 2).trans ((KVal0.region0_array (V1 m ρ) c).trans ?_)
  show scoresF (W1 m ρ c (Proc.devRef .tc main_v0)) (W1 m ρ c (Proc.devRef .tc main_arg1)) = _
  rw [W1_v0, W1_arg m ρ c main_arg1 (by decide)]

theorem W2_arg0 (c : Dev nD) : W2 m ρ c (Proc.devRef .tc main_arg0) = m ((c.tc : Thread nD τ).loc main_arg0) :=
  (W2_of_ne m ρ c main_arg0 (by decide)).trans (W1_arg m ρ c main_arg0 (by decide))
theorem W2_arg2 (c : Dev nD) : W2 m ρ c (Proc.devRef .tc main_arg2) = m ((c.tc : Thread nD τ).loc main_arg2) :=
  (W2_of_ne m ρ c main_arg2 (by decide)).trans (W1_arg m ρ c main_arg2 (by decide))
theorem W2_arg3 (c : Dev nD) : W2 m ρ c (Proc.devRef .tc main_arg3) = m ((c.tc : Thread nD τ).loc main_arg3) :=
  (W2_of_ne m ρ c main_arg3 (by decide)).trans (W1_arg m ρ c main_arg3 (by decide))
theorem W2_arg4 (c : Dev nD) : W2 m ρ c (Proc.devRef .tc main_arg4) = m ((c.tc : Thread nD τ).loc main_arg4) :=
  (W2_of_ne m ρ c main_arg4 (by decide)).trans (W1_arg m ρ c main_arg4 (by decide))

/-! ## Between the kernels -/

theorem W5_arg0 (c : Dev nD) : W5 m ρ c (Proc.devRef .tc main_arg0) = m ((c.tc : Thread nD τ).loc main_arg0) := by
  show StableHlo.after hostOps1_2 (StableHlo.after hostOps1_1 (StableHlo.after hostOps1 (W2 m ρ c))) (Proc.devRef .tc main_arg0) = _
  after_results
  exact W2_arg0 m ρ c

theorem W5_arg2 (c : Dev nD) : W5 m ρ c (Proc.devRef .tc main_arg2) = m ((c.tc : Thread nD τ).loc main_arg2) := by
  show StableHlo.after hostOps1_2 (StableHlo.after hostOps1_1 (StableHlo.after hostOps1 (W2 m ρ c))) (Proc.devRef .tc main_arg2) = _
  after_results
  exact W2_arg2 m ρ c

theorem W5_v6 (c : Dev nD) :
    (W5 m ρ c (Proc.devRef .tc main_v6) : T32x2048x64.Idx → EReal)
      = shapeCast T32x2048x64 (W2 m ρ c (Proc.devRef .tc main_v1) : T65536x64.Idx → EReal) sc_a_3 := by
  show StableHlo.after hostOps1_2 (StableHlo.after hostOps1_1 (StableHlo.after hostOps1 (W2 m ρ c))) (Proc.devRef .tc main_v6) = _
  after_results
  rfl

theorem W5_v7 (c : Dev nD) :
    (W5 m ρ c (Proc.devRef .tc main_v7) : T1x64.Idx → EReal)
      = shapeCast T1x64 (meanOf (F := Ideal) (W2 m ρ c (Proc.devRef .tc main_v1) : T65536x64.Idx → EReal)) sc_64_1x64 := by
  show StableHlo.after hostOps1_2 (StableHlo.after hostOps1_1 (StableHlo.after hostOps1 (W2 m ρ c))) (Proc.devRef .tc main_v7) = _
  after_results
  rfl

theorem W5_v8 (c : Dev nD) :
    (W5 m ρ c (Proc.devRef .tc main_v8) : T1x64.Idx → EReal)
      = shapeCast T1x64 (varOf (F := Ideal) (W2 m ρ c (Proc.devRef .tc main_v1) : T65536x64.Idx → EReal)) sc_64_1x64 := by
  show StableHlo.after hostOps1_2 (StableHlo.after hostOps1_1 (StableHlo.after hostOps1 (W2 m ρ c))) (Proc.devRef .tc main_v8) = _
  after_results
  rfl

theorem W5_v9 (c : Dev nD) :
    (W5 m ρ c (Proc.devRef .tc main_v9) : T1x64.Idx → EReal)
      = shapeCast T1x64 (m ((c.tc : Thread nD τ).loc main_arg3) : T64.Idx → EReal) sc_64_1x64 := by
  show StableHlo.after hostOps1_2 (StableHlo.after hostOps1_1 (StableHlo.after hostOps1 (W2 m ρ c))) (Proc.devRef .tc main_v9) = _
  after_results
  rw [W2_arg3]
  rfl

theorem W5_v10 (c : Dev nD) :
    (W5 m ρ c (Proc.devRef .tc main_v10) : T1x64.Idx → EReal)
      = shapeCast T1x64 (m ((c.tc : Thread nD τ).loc main_arg4) : T64.Idx → EReal) sc_64_1x64 := by
  show StableHlo.after hostOps1_2 (StableHlo.after hostOps1_1 (StableHlo.after hostOps1 (W2 m ρ c))) (Proc.devRef .tc main_v10) = _
  after_results
  rw [W2_arg4]
  rfl

/-! ## The second kernel's array, and after it -/

theorem W6_v11 (c : Dev nD) :
    (W6 m ρ c (Proc.devRef .tc main_v11) : T32x512x64.Idx → EReal)
      = OarrK (m ((c.tc : Thread nD τ).loc main_arg0) : T32x2048x512.Idx → EReal)
          (shapeCast T32x2048x64 (W2 m ρ c (Proc.devRef .tc main_v1) : T65536x64.Idx → EReal) sc_a_3)
          (m ((c.tc : Thread nD τ).loc main_arg2) : T1x512x64.Idx → EReal)
          (shapeCast T1x64 (meanOf (F := Ideal) (W2 m ρ c (Proc.devRef .tc main_v1) : T65536x64.Idx → EReal)) sc_64_1x64)
          (shapeCast T1x64 (varOf (F := Ideal) (W2 m ρ c (Proc.devRef .tc main_v1) : T65536x64.Idx → EReal)) sc_64_1x64)
          (shapeCast T1x64 (m ((c.tc : Thread nD τ).loc main_arg3) : T64.Idx → EReal) sc_64_1x64)
          (shapeCast T1x64 (m ((c.tc : Thread nD τ).loc main_arg4) : T64.Idx → EReal) sc_64_1x64) := by
  refine (W6_arr m ρ c 7).trans ((KVal1.region1_array (V5 m ρ) c).trans ?_)
  show OarrK (W5 m ρ c (Proc.devRef .tc main_arg0)) (W5 m ρ c (Proc.devRef .tc main_v6)) (W5 m ρ c (Proc.devRef .tc main_arg2))
      (W5 m ρ c (Proc.devRef .tc main_v7)) (W5 m ρ c (Proc.devRef .tc main_v8)) (W5 m ρ c (Proc.devRef .tc main_v9))
      (W5 m ρ c (Proc.devRef .tc main_v10)) = _
  rw [W5_arg0, W5_v6, W5_arg2, W5_v7, W5_v8, W5_v9, W5_v10]

theorem W7_v20 (c : Dev nD) :
    (W7 m ρ c (Proc.devRef .tc main_v20) : T32x32768.Idx → EReal)
      = tailOf (F := Ideal) (W6 m ρ c (Proc.devRef .tc main_v11) : T32x512x64.Idx → EReal) := by
  show StableHlo.after hostOps2 (W6 m ρ c) (Proc.devRef .tc main_v20) = _
  after_results
  rfl

end Cert.KernelIdeal.KHost

end
-- ==== Proof.SpecLayout.lean ====
/-
  The second kernel's windows are cut from the raw scores reshaped member by member and from the four parameter
  vectors as one-row matrices: read at an index, those reshapes are the flat arrays at the matching index, so the
  result over the reshaped arrays is the result over the flat ones.
-/
import proofs.«160465_j19688130085433_1_alg».proof.Proof.Spec
import proofs.«160465_j19688130085433_1_alg».proof.Proof.Shared
import Idealize.ShloMosaic.Lib.Pipeline.Value
import Idealize.ShloMosaic.Lib.ValueLayout

noncomputable section

open scoped BigOperators

namespace Cert.Vlad

open Idealize.ShloMosaic Idealize.ShloMosaic.ValueIdx

/-- The scores reshaped member by member: entry (b, n, k) is the flat entry at row b * 2048 + n, column k (both sit at
    row-major position (b * 2048 + n) * 64 + k). -/
theorem shapeCast_a3_apply (a : FVec Ideal T65536x64 .f32) (b : Fin 32) (n : Fin 2048) (k : Fin 64) :
    shapeCast T32x2048x64 a sc_a_3 (ix3 b n k) = a (ix2 (rowOf b n) k) :=
  shapeCast_apply a sc_a_3 _ _ (by
    rw [Shape.rowMajor_val_two, Shape.rowMajor_val_three]
    show (b.val * 2048 + n.val) * 64 + k.val = (b.val * 2048 + n.val) * 64 + k.val
    rfl)

/-- A vector of 64 as a one-row matrix: entry (0, k) is the vector's entry k. -/
theorem shapeCast_row_apply (v : FVec Ideal T64 .f32) (k : Fin 64) :
    shapeCast T1x64 v sc_64_1x64 (ix2 (0 : Fin 1) k) = v (ix1 k) :=
  shapeCast_a_1a_apply v sc_64_1x64 0 k

theorem OarrK_shapeCast (x : FVec Ideal T32x2048x512 .f32) (a : FVec Ideal T65536x64 .f32) (mu va g be : FVec Ideal T64 .f32)
    (c2 : FVec Ideal T1x512x64 .f32) :
    OarrK x (shapeCast T32x2048x64 a sc_a_3) c2 (shapeCast T1x64 mu sc_64_1x64) (shapeCast T1x64 va sc_64_1x64)
        (shapeCast T1x64 g sc_64_1x64) (shapeCast T1x64 be sc_64_1x64)
      = Oarr x a mu va g be c2 := by
  funext i
  -- the index by its three coordinates, each of its literal type
  obtain ⟨b, d, k, rfl⟩ : ∃ (b : Fin 32) (d : Fin 512) (k : Fin 64), i = ix3 b d k := ⟨i 0, i 1, i 2, eq_ix3 i⟩
  show oAtK x (shapeCast T32x2048x64 a sc_a_3) c2 (shapeCast T1x64 mu sc_64_1x64) (shapeCast T1x64 va sc_64_1x64)
      (shapeCast T1x64 g sc_64_1x64) (shapeCast T1x64 be sc_64_1x64) b d k = oAt x a mu va g be c2 b d k
  -- both sides are the same block of member b; its scores and its four parameter rows agree entry by entry
  unfold oAtK oAt
  simp only [shapeCast_a3_apply, shapeCast_row_apply]

end Cert.Vlad

end
-- ==== Proof.Target.lean ====
/-
  The one function of the five arguments both programs' results are shown equal to: the raw scores of the flattened
  rows, their mean and variance over all rows, the specification's array, and the final normalisation of each
  member's row.
-/
import proofs.«160465_j19688130085433_1_alg».proof.Proof.Spec
import proofs.«160465_j19688130085433_1_alg».proof.Proof.Shared

noncomputable section

open scoped BigOperators

namespace Cert.Vlad

open Idealize.ShloMosaic

def target (x : FVec Ideal T32x2048x512 .f32) (cl : FVec Ideal T512x64 .f32) (c2 : FVec Ideal T1x512x64 .f32)
    (g be : FVec Ideal T64 .f32) : FVec Ideal T32x32768 .f32 :=
  tailOf (Oarr x (scoresF (shapeCast T65536x512 x sc_x_flat) cl) (meanOf (scoresF (shapeCast T65536x512 x sc_x_flat) cl))
    (varOf (scoresF (shapeCast T65536x512 x sc_x_flat) cl)) g be c2)

end Cert.Vlad

end
-- ==== Proof.KValue.lean ====
/-
  The kernel program's result buffer at the last boundary is the target of the launch contents: the first kernel's
  array is the raw scores, the second kernel's array the specification's (its reshaped inputs read back to the flat
  ones), and the tail the final normalisation.
-/
import proofs.«160465_j19688130085433_1_alg».proof.Proof.KHost
import proofs.«160465_j19688130085433_1_alg».proof.Proof.SpecLayout
import proofs.«160465_j19688130085433_1_alg».proof.Proof.Target

set_option maxRecDepth 16384

noncomputable section

open scoped BigOperators

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Vlad

open Cert.KernelIdeal.KHost

variable (m : (ℓ : Loc nD τ sig) → Buf (Elt Ideal) ℓ) (ρ : Dev nD → PrngReg)

theorem W7_value (c : Dev nD) :
    (W7 m ρ c (Proc.devRef .tc main_v20) : T32x32768.Idx → EReal)
      = target (m ((c.tc : Thread nD τ).loc main_arg0) : T32x2048x512.Idx → EReal)
          (m ((c.tc : Thread nD τ).loc main_arg1) : T512x64.Idx → EReal)
          (m ((c.tc : Thread nD τ).loc main_arg2) : T1x512x64.Idx → EReal)
          (m ((c.tc : Thread nD τ).loc main_arg3) : T64.Idx → EReal)
          (m ((c.tc : Thread nD τ).loc main_arg4) : T64.Idx → EReal) := by
  rw [W7_v20, W6_v11, OarrK_shapeCast, W2_v1]
  rfl

end Cert.KernelIdeal.KValue

end
-- ==== Proof.RRun.lean ====
/-
  The reference program's run read back: @main is a straight line of host operations (jnp.var's outlined body and
  the where inside it inlined at their call), so every weakly fair execution terminates with the result buffer at
  the operations' composed term of the five arguments — the raw scores, their mean and variance, the four middle
  stages and the final normalisation — and the arguments unchanged.
-/
import proofs.«160465_j19688130085433_1_alg».proof.Proof.Gen.ReferenceIdeal
import proofs.«160465_j19688130085433_1_alg».proof.Proof.Shared
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo
open Cert.Vlad

variable {F : FTy → Type} [FloatOps F]

/-- The first eight operations: the rows flattened, the raw scores, their mean over the rows, and the integer zero jnp.var is called with. -/
abbrev opsA : List (HloOp τ sig (Elt F)) :=
  [ StableHlo.reshape main_arg0 main_v0 rfl shapeCasts_S32x2048x512_S65536x512,
    StableHlo.binary main_v0 main_arg1 main_v1 ((fun l r => Host.dotGeneral dot_S65536x512_S512x64_S65536x64_1_0_0_1_n_n none l r) : (⟨S65536x512, .f32⟩ : BufTy).Contents (Elt F) → (⟨S512x64, .f32⟩ : BufTy).Contents (Elt F) → (⟨S65536x64, .f32⟩ : BufTy).Contents (Elt F)),
    StableHlo.nullary main_cst (constant S_ .f32 0x00000000#32),
    StableHlo.binary main_v1 main_cst main_v2 ((fun x v => Host.reduceAdd x v reducesTo_S65536x64_S64_d0 h_S_) : (⟨S65536x64, .f32⟩ : BufTy).Contents (Elt F) → (⟨S_, .f32⟩ : BufTy).Contents (Elt F) → (⟨S64, .f32⟩ : BufTy).Contents (Elt F)),
    StableHlo.nullary main_cst_0 (constant S_ .f32 0x47800000#32),
    StableHlo.unary main_cst_0 main_v3 (broadcastInDim S64 ![] bcast_S_S64 : (⟨S_, .f32⟩ : BufTy).Contents (Elt F) → (⟨S64, .f32⟩ : BufTy).Contents (Elt F)),
    StableHlo.binary main_v2 main_v3 main_v4 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32) ]

/-- jnp.var's outlined body over the call's buffers, the where inside it inlined in turn: 19 operations and 3, the select writing the call's result. -/
abbrev opsB : List (HloOp τ sig (Elt F)) :=
  [ StableHlo.TRef.nullary (.of main_call0_cst : StableHlo.TRef sig ⟨S_, .f32⟩) (constant S_ .f32 0x00000000#32),
    StableHlo.TRef.binary (.of main_v1 : StableHlo.TRef sig ⟨S65536x64, .f32⟩) (.of main_call0_cst : StableHlo.TRef sig ⟨S_, .f32⟩) (.of main_call0_v0 : StableHlo.TRef sig ⟨S64, .f32⟩) (fun x v => Host.reduceAdd x v reducesTo_S65536x64_S64_d0 h_S_),
    StableHlo.TRef.unary (.of main_call0_v0 : StableHlo.TRef sig ⟨S64, .f32⟩) (.of main_call0_v1 : StableHlo.TRef sig ⟨S1x64, .f32⟩) (broadcastInDim S1x64 ![1] bcast_S64_S1x64_1),
    StableHlo.TRef.nullary (.of main_call0_cst_0 : StableHlo.TRef sig ⟨S_, .f32⟩) (constant S_ .f32 0x47800000#32),
    StableHlo.TRef.unary (.of main_call0_cst_0 : StableHlo.TRef sig ⟨S_, .f32⟩) (.of main_call0_v2 : StableHlo.TRef sig ⟨S1x64, .f32⟩) (broadcastInDim S1x64 ![] bcast_S_S1x64),
    StableHlo.TRef.binary (.of main_call0_v1 : StableHlo.TRef sig ⟨S1x64, .f32⟩) (.of main_call0_v2 : StableHlo.TRef sig ⟨S1x64, .f32⟩) (.of main_call0_v3 : StableHlo.TRef sig ⟨S1x64, .f32⟩) Host.divf,
    StableHlo.TRef.unary (.of main_call0_v3 : StableHlo.TRef sig ⟨S1x64, .f32⟩) (.of main_call0_v4 : StableHlo.TRef sig ⟨S65536x64, .f32⟩) (broadcastInDim S65536x64 ![0, 1] bcast_S1x64_S65536x64_0_1),
    StableHlo.TRef.binary (.of main_v1 : StableHlo.TRef sig ⟨S65536x64, .f32⟩) (.of main_call0_v4 : StableHlo.TRef sig ⟨S65536x64, .f32⟩) (.of main_call0_v5 : StableHlo.TRef sig ⟨S65536x64, .f32⟩) subf,
    StableHlo.TRef.binary (.of main_call0_v5 : StableHlo.TRef sig ⟨S65536x64, .f32⟩) (.of main_call0_v5 : StableHlo.TRef sig ⟨S65536x64, .f32⟩) (.of main_call0_v6 : StableHlo.TRef sig ⟨S65536x64, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S65536x64, .f32⟩) (.of main_call0_cst_2 : StableHlo.TRef sig ⟨S_, .f32⟩) (.of main_call0_v9 : StableHlo.TRef sig ⟨S64, .f32⟩) (fun x v => Host.reduceAdd x v reducesTo_S65536x64_S64_d0 h_S_),
    StableHlo.TRef.unary (.of main_call0_v8 : StableHlo.TRef sig ⟨S_, .f32⟩) (.of main_call0_v10 : StableHlo.TRef sig ⟨S64, .f32⟩) (broadcastInDim S64 ![] bcast_S_S64),
    StableHlo.TRef.binary (.of main_call0_v9 : StableHlo.TRef sig ⟨S64, .f32⟩) (.of main_call0_v10 : StableHlo.TRef sig ⟨S64, .f32⟩) (.of main_call0_v11 : StableHlo.TRef sig ⟨S64, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S64, .f32⟩) (broadcastInDim S64 ![] bcast_S_S64),
    StableHlo.TRef.ternary (.of main_call0_v12 : StableHlo.TRef sig ⟨S_, .i1⟩) (.of main_call0_v11 : StableHlo.TRef sig ⟨S64, .f32⟩) (.of main_call0_call0_v1 : StableHlo.TRef sig ⟨S64, .f32⟩) (.of main_v5 : StableHlo.TRef sig ⟨S64, .f32⟩) (fun p a b => select (broadcastInDim S64 ![] bcast_S_S64 p) a b) ]

/-- Sixteen operations: the batch-normalised scores (centre, scale by the reciprocal root of the variance plus epsilon, the affine map). -/
abbrev opsZ : List (HloOp τ sig (Elt F)) :=
  [ StableHlo.unary main_v4 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S65536x64 ![0, 1] bcast_S1x64_S65536x64_0_1 : (⟨S1x64, .f32⟩ : BufTy).Contents (Elt F) → (⟨S65536x64, .f32⟩ : BufTy).Contents (Elt F)),
    StableHlo.binary main_v1 main_v7 main_v8 (subf : (⟨S65536x64, .f32⟩ : BufTy).Contents (Elt F) → (⟨S65536x64, .f32⟩ : BufTy).Contents (Elt F) → (⟨S65536x64, .f32⟩ : BufTy).Contents (Elt F)),
    StableHlo.nullary main_cst_1 (constant S_ .f32 0x3727C5AC#32),
    StableHlo.unary main_cst_1 main_v9 (broadcastInDim S64 ![] bcast_S_S64 : (⟨S_, .f32⟩ : BufTy).Contents (Elt F) → (⟨S64, .f32⟩ : BufTy).Contents (Elt F)),
    StableHlo.binary main_v5 main_v9 main_v10 (addf : (⟨S64, .f32⟩ : BufTy).Contents (Elt F) → (⟨S64, .f32⟩ : BufTy).Contents (Elt F) → (⟨S64, .f32⟩ : BufTy).Contents (Elt F)),
    StableHlo.unary main_v10 main_v11 (Host.rsqrt : (⟨S64, .f32⟩ : BufTy).Contents (Elt F) → (⟨S64, .f32⟩ : BufTy).Contents (Elt F)),
    StableHlo.unary main_v11 main_v12 (broadcastInDim S1x64 ![1] bcast_S64_S1x64_1 : (⟨S64, .f32⟩ : BufTy).Contents (Elt F) → (⟨S1x64, .f32⟩ : BufTy).Contents (Elt F)),
    StableHlo.unary main_v12 main_v13 (broadcastInDim S65536x64 ![0, 1] bcast_S1x64_S65536x64_0_1 : (⟨S1x64, .f32⟩ : BufTy).Contents (Elt F) → (⟨S65536x64, .f32⟩ : BufTy).Contents (Elt F)),
    StableHlo.binary main_v8 main_v13 main_v14 (mulf : (⟨S65536x64, .f32⟩ : BufTy).Contents (Elt F) → (⟨S65536x64, .f32⟩ : BufTy).Contents (Elt F) → (⟨S65536x64, .f32⟩ : BufTy).Contents (Elt F)),
    StableHlo.unary main_arg3 main_v15 (broadcastInDim S1x64 ![1] bcast_S64_S1x64_1 : (⟨S64, .f32⟩ : BufTy).Contents (Elt F) → (⟨S1x64, .f32⟩ : BufTy).Contents (Elt F)),
    StableHlo.unary main_v15 main_v16 (broadcastInDim S65536x64 ![0, 1] bcast_S1x64_S65536x64_0_1 : (⟨S1x64, .f32⟩ : BufTy).Contents (Elt F) → (⟨S65536x64, .f32⟩ : BufTy).Contents (Elt F)),
    StableHlo.binary main_v14 main_v16 main_v17 (mulf : (⟨S65536x64, .f32⟩ : BufTy).Contents (Elt F) → (⟨S65536x64, .f32⟩ : BufTy).Contents (Elt F) → (⟨S65536x64, .f32⟩ : BufTy).Contents (Elt F)),
    StableHlo.unary main_arg4 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S65536x64 ![0, 1] bcast_S1x64_S65536x64_0_1 : (⟨S1x64, .f32⟩ : BufTy).Contents (Elt F) → (⟨S65536x64, .f32⟩ : BufTy).Contents (Elt F)),
    StableHlo.binary main_v17 main_v19 main_v20 (addf : (⟨S65536x64, .f32⟩ : BufTy).Contents (Elt F) → (⟨S65536x64, .f32⟩ : BufTy).Contents (Elt F) → (⟨S65536x64, .f32⟩ : BufTy).Contents (Elt F)) ]

/-- Fourteen operations: the row softmax in the shifted form (the row maximum from -inf, the exponentials, their row sums, the quotient). -/
abbrev opsP : List (HloOp τ sig (Elt F)) :=
  [ StableHlo.nullary main_cst_2 (constant S_ .f32 0xFF800000#32),
    StableHlo.binary main_v20 main_cst_2 main_v21 ((fun x v => Host.reduce FloatOps.maximumf x v reducesTo_S65536x64_S65536_d1 h_S_) : (⟨S65536x64, .f32⟩ : BufTy).Contents (Elt F) → (⟨S_, .f32⟩ : BufTy).Contents (Elt F) → (⟨S65536, .f32⟩ : BufTy).Contents (Elt F)),
    StableHlo.nullary main_cst_3 (constant S_ .f32 0xFF800000#32),
    StableHlo.unary main_cst_3 main_v22 (broadcastInDim S65536 ![] bcast_S_S65536 : (⟨S_, .f32⟩ : BufTy).Contents (Elt F) → (⟨S65536, .f32⟩ : BufTy).Contents (Elt F)),
    StableHlo.binary main_v22 main_v21 main_v23 (maximumf : (⟨S65536, .f32⟩ : BufTy).Contents (Elt F) → (⟨S65536, .f32⟩ : BufTy).Contents (Elt F) → (⟨S65536, .f32⟩ : BufTy).Contents (Elt F)),
    StableHlo.unary main_v23 main_v24 (broadcastInDim S65536x1 ![0] bcast_S65536_S65536x1_0 : (⟨S65536, .f32⟩ : BufTy).Contents (Elt F) → (⟨S65536x1, .f32⟩ : BufTy).Contents (Elt F)),
    StableHlo.unary main_v24 main_v25 (broadcastInDim S65536x64 ![0, 1] bcast_S65536x1_S65536x64_0_1 : (⟨S65536x1, .f32⟩ : BufTy).Contents (Elt F) → (⟨S65536x64, .f32⟩ : BufTy).Contents (Elt F)),
    StableHlo.binary main_v20 main_v25 main_v26 (subf : (⟨S65536x64, .f32⟩ : BufTy).Contents (Elt F) → (⟨S65536x64, .f32⟩ : BufTy).Contents (Elt F) → (⟨S65536x64, .f32⟩ : BufTy).Contents (Elt F)),
    StableHlo.unary main_v26 main_v27 (Host.exp : (⟨S65536x64, .f32⟩ : BufTy).Contents (Elt F) → (⟨S65536x64, .f32⟩ : BufTy).Contents (Elt F)),
    StableHlo.nullary main_cst_4 (constant S_ .f32 0x00000000#32),
    StableHlo.binary main_v27 main_cst_4 main_v28 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    StableHlo.unary main_v28 main_v29 (broadcastInDim S65536x1 ![0] bcast_S65536_S65536x1_0 : (⟨S65536, .f32⟩ : BufTy).Contents (Elt F) → (⟨S65536x1, .f32⟩ : BufTy).Contents (Elt F)),
    StableHlo.unary main_v29 main_v30 (broadcastInDim S65536x64 ![0, 1] bcast_S65536x1_S65536x64_0_1 : (⟨S65536x1, .f32⟩ : BufTy).Contents (Elt F) → (⟨S65536x64, .f32⟩ : BufTy).Contents (Elt F)),
    StableHlo.binary main_v27 main_v30 main_v31 (Host.divf : (⟨S65536x64, .f32⟩ : BufTy).Contents (Elt F) → (⟨S65536x64, .f32⟩ : BufTy).Contents (Elt F) → (⟨S65536x64, .f32⟩ : BufTy).Contents (Elt F)) ]

/-- Nine operations: the assignments member by member, their totals over the rows against the second table, the batched contraction, the difference. -/
abbrev opsW : List (HloOp τ sig (Elt F)) :=
  [ StableHlo.reshape main_v31 main_v32 rfl shapeCasts_S65536x64_S32x2048x64,
    StableHlo.nullary main_cst_5 (constant S_ .f32 0x00000000#32),
    StableHlo.binary main_v32 main_cst_5 main_v33 ((fun x v => Host.reduceAdd x v reducesTo_S32x2048x64_S32x64_d1 h_S_) : (⟨S32x2048x64, .f32⟩ : BufTy).Contents (Elt F) → (⟨S_, .f32⟩ : BufTy).Contents (Elt F) → (⟨S32x64, .f32⟩ : BufTy).Contents (Elt F)),
    StableHlo.unary main_v33 main_v34 (broadcastInDim S32x1x64 ![0, 2] bcast_S32x64_S32x1x64_0_2 : (⟨S32x64, .f32⟩ : BufTy).Contents (Elt F) → (⟨S32x1x64, .f32⟩ : BufTy).Contents (Elt F)),
    StableHlo.unary main_v34 main_v35 (broadcastInDim S32x512x64 ![0, 1, 2] bcast_S32x1x64_S32x512x64_0_1_2 : (⟨S32x1x64, .f32⟩ : BufTy).Contents (Elt F) → (⟨S32x512x64, .f32⟩ : BufTy).Contents (Elt F)),
    StableHlo.unary main_arg2 main_v36 (broadcastInDim S32x512x64 ![0, 1, 2] bcast_S1x512x64_S32x512x64_0_1_2 : (⟨S1x512x64, .f32⟩ : BufTy).Contents (Elt F) → (⟨S32x512x64, .f32⟩ : BufTy).Contents (Elt F)),
    StableHlo.binary main_v35 main_v36 main_v37 (mulf : (⟨S32x512x64, .f32⟩ : BufTy).Contents (Elt F) → (⟨S32x512x64, .f32⟩ : BufTy).Contents (Elt F) → (⟨S32x512x64, .f32⟩ : BufTy).Contents (Elt F)),
    StableHlo.binary main_arg0 main_v32 main_v38 ((fun l r => Host.dotGeneral dot_S32x2048x512_S32x2048x64_S32x512x64_1_1_2_2_0_0 none l r) : (⟨S32x2048x512, .f32⟩ : BufTy).Contents (Elt F) → (⟨S32x2048x64, .f32⟩ : BufTy).Contents (Elt F) → (⟨S32x512x64, .f32⟩ : BufTy).Contents (Elt F)),
    StableHlo.binary main_v38 main_v37 main_v39 (subf : (⟨S32x512x64, .f32⟩ : BufTy).Contents (Elt F) → (⟨S32x512x64, .f32⟩ : BufTy).Contents (Elt F) → (⟨S32x512x64, .f32⟩ : BufTy).Contents (Elt F)) ]

/-- Ten operations: each cluster's column divided by its Euclidean norm over the features, the norm floored. -/
abbrev opsO : List (HloOp τ sig (Elt F)) :=
  [ StableHlo.binary main_v39 main_v39 main_v40 (mulf : (⟨S32x512x64, .f32⟩ : BufTy).Contents (Elt F) → (⟨S32x512x64, .f32⟩ : BufTy).Contents (Elt F) → (⟨S32x512x64, .f32⟩ : BufTy).Contents (Elt F)),
    StableHlo.nullary main_cst_6 (constant S_ .f32 0x00000000#32),
    StableHlo.binary main_v40 main_cst_6 main_v41 ((fun x v => Host.reduceAdd x v reducesTo_S32x512x64_S32x64_d1 h_S_) : (⟨S32x512x64, .f32⟩ : BufTy).Contents (Elt F) → (⟨S_, .f32⟩ : BufTy).Contents (Elt F) → (⟨S32x64, .f32⟩ : BufTy).Contents (Elt F)),
    StableHlo.unary main_v41 main_v42 (broadcastInDim S32x1x64 ![0, 2] bcast_S32x64_S32x1x64_0_2 : (⟨S32x64, .f32⟩ : BufTy).Contents (Elt F) → (⟨S32x1x64, .f32⟩ : BufTy).Contents (Elt F)),
    StableHlo.unary main_v42 main_v43 (Host.sqrt : (⟨S32x1x64, .f32⟩ : BufTy).Contents (Elt F) → (⟨S32x1x64, .f32⟩ : BufTy).Contents (Elt F)),
    StableHlo.nullary main_cst_7 (constant S_ .f32 0x2B8CBCCC#32),
    StableHlo.unary main_cst_7 main_v44 (broadcastInDim S32x1x64 ![] bcast_S_S32x1x64 : (⟨S_, .f32⟩ : BufTy).Contents (Elt F) → (⟨S32x1x64, .f32⟩ : BufTy).Contents (Elt F)),
    StableHlo.binary main_v43 main_v44 main_v45 (maximumf : (⟨S32x1x64, .f32⟩ : BufTy).Contents (Elt F) → (⟨S32x1x64, .f32⟩ : BufTy).Contents (Elt F) → (⟨S32x1x64, .f32⟩ : BufTy).Contents (Elt F)),
    StableHlo.unary main_v45 main_v46 (broadcastInDim S32x512x64 ![0, 1, 2] bcast_S32x1x64_S32x512x64_0_1_2 : (⟨S32x1x64, .f32⟩ : BufTy).Contents (Elt F) → (⟨S32x512x64, .f32⟩ : BufTy).Contents (Elt F)),
    StableHlo.binary main_v39 main_v46 main_v47 (Host.divf : (⟨S32x512x64, .f32⟩ : BufTy).Contents (Elt F) → (⟨S32x512x64, .f32⟩ : BufTy).Contents (Elt F) → (⟨S32x512x64, .f32⟩ : BufTy).Contents (Elt F)) ]

/-- The last eleven operations: one row per member, its Euclidean norm floored, the division by it. -/
abbrev opsT : List (HloOp τ sig (Elt F)) :=
  [ StableHlo.reshape main_v47 main_v48 rfl shapeCasts_S32x512x64_S32x32768,
    StableHlo.binary main_v48 main_v48 main_v49 (mulf : (⟨S32x32768, .f32⟩ : BufTy).Contents (Elt F) → (⟨S32x32768, .f32⟩ : BufTy).Contents (Elt F) → (⟨S32x32768, .f32⟩ : BufTy).Contents (Elt F)),
    StableHlo.nullary main_cst_8 (constant S_ .f32 0x00000000#32),
    StableHlo.binary main_v49 main_cst_8 main_v50 ((fun x v => Host.reduceAdd x v reducesTo_S32x32768_S32_d1 h_S_) : (⟨S32x32768, .f32⟩ : BufTy).Contents (Elt F) → (⟨S_, .f32⟩ : BufTy).Contents (Elt F) → (⟨S32, .f32⟩ : BufTy).Contents (Elt F)),
    StableHlo.unary main_v50 main_v51 (broadcastInDim S32x1 ![0] bcast_S32_S32x1_0 : (⟨S32, .f32⟩ : BufTy).Contents (Elt F) → (⟨S32x1, .f32⟩ : BufTy).Contents (Elt F)),
    StableHlo.unary main_v51 main_v52 (Host.sqrt : (⟨S32x1, .f32⟩ : BufTy).Contents (Elt F) → (⟨S32x1, .f32⟩ : BufTy).Contents (Elt F)),
    StableHlo.nullary main_cst_9 (constant S_ .f32 0x2B8CBCCC#32),
    StableHlo.unary main_cst_9 main_v53 (broadcastInDim S32x1 ![] bcast_S_S32x1 : (⟨S_, .f32⟩ : BufTy).Contents (Elt F) → (⟨S32x1, .f32⟩ : BufTy).Contents (Elt F)),
    StableHlo.binary main_v52 main_v53 main_v54 (maximumf : (⟨S32x1, .f32⟩ : BufTy).Contents (Elt F) → (⟨S32x1, .f32⟩ : BufTy).Contents (Elt F) → (⟨S32x1, .f32⟩ : BufTy).Contents (Elt F)),
    StableHlo.unary main_v54 main_v55 (broadcastInDim S32x32768 ![0, 1] bcast_S32x1_S32x32768_0_1 : (⟨S32x1, .f32⟩ : BufTy).Contents (Elt F) → (⟨S32x32768, .f32⟩ : BufTy).Contents (Elt F)),
    StableHlo.binary main_v48 main_v55 main_v56 (Host.divf : (⟨S32x32768, .f32⟩ : BufTy).Contents (Elt F) → (⟨S32x32768, .f32⟩ : BufTy).Contents (Elt F) → (⟨S32x32768, .f32⟩ : BufTy).Contents (Elt F)) ]

/-- @main's 90 operations, in order: the seven stretches one after the other. -/
abbrev ops : List (HloOp τ sig (Elt F)) := opsA ++ opsB ++ opsZ ++ opsP ++ opsW ++ opsO ++ opsT

set_option maxRecDepth 4096 in
/-- @main is that straight line: its two printed windows one after the other, jnp.var's body unfolded at its call and
    the where's body inside it, the records at their fields; both sides are one chain of steps once sequencing is
    reassociated. -/
theorem main_eq (c : Dev nD) : main (F := F) c = seq ops := by
  simp only [main, main_part0, main_part1, fn_var.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    reshape_bufs_sub .., nullary_bufs_sub .., binary_bufs_sub .., unary_bufs_sub .., unary_bufs_sub .., unary_bufs_sub ..,
    binary_bufs_sub .., binary_bufs_sub .., binary_bufs_sub .., binary_bufs_sub .., nullary_bufs_sub .., binary_bufs_sub ..,
    unary_bufs_sub .., unary_bufs_sub .., nullary_bufs_sub .., unary_bufs_sub .., binary_bufs_sub .., unary_bufs_sub ..,
    binary_bufs_sub .., reshape_bufs_sub .., binary_bufs_sub .., nullary_bufs_sub .., binary_bufs_sub .., unary_bufs_sub ..,
    unary_bufs_sub .., nullary_bufs_sub .., unary_bufs_sub .., binary_bufs_sub .., unary_bufs_sub .., binary_bufs_sub ..⟩

/-- The contents after two lines run in turn: the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## Each stretch read back: the buffer it ends in as Shared's function of the buffers it starts from, and the
    buffers a later stretch still reads left as they were -/

theorem A_v1 (V : Valuation τ sig (Elt F)) :
    after opsA V (main_v1 : DevRef τ sig) = refScores (V (main_arg0 : DevRef τ sig)) (V (main_arg1 : DevRef τ sig)) := by
  after_results_simp
  rfl

theorem A_v4 (V : Valuation τ sig (Elt F)) :
    after opsA V (main_v4 : DevRef τ sig) = meanOf (refScores (V (main_arg0 : DevRef τ sig)) (V (main_arg1 : DevRef τ sig))) := by
  after_results_simp
  rfl

theorem A_c (V : Valuation τ sig (Elt F)) : after opsA V (main_c : DevRef τ sig) = constantI S_ 32 0#32 := by
  after_results_simp

theorem A_keep (V : Valuation τ sig (Elt F)) :
    after opsA V (main_arg0 : DevRef τ sig) = V (main_arg0 : DevRef τ sig)
      ∧ after opsA V (main_arg2 : DevRef τ sig) = V (main_arg2 : DevRef τ sig)
      ∧ after opsA V (main_arg3 : DevRef τ sig) = V (main_arg3 : DevRef τ sig)
      ∧ after opsA V (main_arg4 : DevRef τ sig) = V (main_arg4 : DevRef τ sig) := by
  refine ⟨?_, ?_, ?_, ?_⟩ <;> after_results_simp

/-- jnp.var's body at the scores, its integer argument the zero the call passes: the typed references' transports
    are the identity at these literal references. -/
theorem B_v5 (W : Valuation τ sig (Elt F)) (hc : W (main_c : DevRef τ sig) = constantI S_ 32 0#32) :
    after opsB W (main_v5 : DevRef τ sig) = varOf (W (main_v1 : DevRef τ sig)) := by
  after_results_simp
  simp only [TRef.ofBuf, TRef.toBuf, cast_eq]
  rw [hc]
  rfl

theorem B_keep (W : Valuation τ sig (Elt F)) :
    after opsB W (main_v1 : DevRef τ sig) = W (main_v1 : DevRef τ sig)
      ∧ after opsB W (main_v4 : DevRef τ sig) = W (main_v4 : DevRef τ sig)
      ∧ after opsB W (main_arg0 : DevRef τ sig) = W (main_arg0 : DevRef τ sig)
      ∧ after opsB W (main_arg2 : DevRef τ sig) = W (main_arg2 : DevRef τ sig)
      ∧ after opsB W (main_arg3 : DevRef τ sig) = W (main_arg3 : DevRef τ sig)
      ∧ after opsB W (main_arg4 : DevRef τ sig) = W (main_arg4 : DevRef τ sig) := by
  refine ⟨?_, ?_, ?_, ?_, ?_, ?_⟩ <;> after_results_simp

theorem Z_v20 (W : Valuation τ sig (Elt F)) :
    after opsZ W (main_v20 : DevRef τ sig)
      = rz (W (main_v1 : DevRef τ sig)) (W (main_v4 : DevRef τ sig)) (W (main_v5 : DevRef τ sig)) (W (main_arg3 : DevRef τ sig)) (W (main_arg4 : DevRef τ sig)) := by
  after_results_simp
  rfl

theorem Z_keep (W : Valuation τ sig (Elt F)) :
    after opsZ W (main_arg0 : DevRef τ sig) = W (main_arg0 : DevRef τ sig)
      ∧ after opsZ W (main_arg2 : DevRef τ sig) = W (main_arg2 : DevRef τ sig) := by
  refine ⟨?_, ?_⟩ <;> after_results_simp

theorem P_v31 (W : Valuation τ sig (Elt F)) : after opsP W (main_v31 : DevRef τ sig) = rp (W (main_v20 : DevRef τ sig)) := by
  after_results_simp
  rfl

theorem P_keep (W : Valuation τ sig (Elt F)) :
    after opsP W (main_arg0 : DevRef τ sig) = W (main_arg0 : DevRef τ sig)
      ∧ after opsP W (main_arg2 : DevRef τ sig) = W (main_arg2 : DevRef τ sig) := by
  refine ⟨?_, ?_⟩ <;> after_results_simp

theorem W_v39 (W : Valuation τ sig (Elt F)) :
    after opsW W (main_v39 : DevRef τ sig) = rw (W (main_arg0 : DevRef τ sig)) (W (main_v31 : DevRef τ sig)) (W (main_arg2 : DevRef τ sig)) := by
  after_results_simp
  rfl

theorem O_v47 (W : Valuation τ sig (Elt F)) : after opsO W (main_v47 : DevRef τ sig) = ro (W (main_v39 : DevRef τ sig)) := by
  after_results_simp
  rfl

theorem T_v56 (W : Valuation τ sig (Elt F)) : after opsT W (main_v56 : DevRef τ sig) = tailOf (W (main_v47 : DevRef τ sig)) := by
  after_results_simp
  rfl

/-! ## The whole line -/

/-- The result buffer after all ninety: the stretches composed, each read at the buffers the one before it left. -/
theorem out_eq (V : Valuation τ sig (Elt F)) :
    after ops V (main_v56 : DevRef τ sig)
      = refOut (V (main_arg0 : DevRef τ sig)) (V (main_arg1 : DevRef τ sig)) (V (main_arg2 : DevRef τ sig)) (V (main_arg3 : DevRef τ sig)) (V (main_arg4 : DevRef τ sig)) := by
  have hA := A_keep V
  have hB := B_keep (after opsA V)
  have hZ := Z_keep (after opsB (after opsA V))
  have hP := P_keep (after opsZ (after opsB (after opsA V)))
  show after (opsA ++ opsB ++ opsZ ++ opsP ++ opsW ++ opsO ++ opsT) V _ = _
  rw [after_app, after_app, after_app, after_app, after_app, after_app]
  rw [T_v56, O_v47, W_v39, P_v31, hP.1, hP.2, Z_v20, hZ.1, hZ.2, B_v5 _ (A_c V),
    hB.1, hB.2.1, hB.2.2.1, hB.2.2.2.1, hB.2.2.2.2.1, hB.2.2.2.2.2, A_v1, A_v4, hA.1, hA.2.1, hA.2.2.1, hA.2.2.2]
  rfl

theorem arg0_eq (V : Valuation τ sig (Elt F)) : after ops V (main_arg0 : DevRef τ sig) = V (main_arg0 : DevRef τ sig) := by
  show after (opsA ++ opsB ++ opsZ ++ opsP ++ opsW ++ opsO ++ opsT) V _ = _
  rw [after_app, after_app, after_app, after_app, after_app, after_app]
  after_results_simp

theorem arg1_eq (V : Valuation τ sig (Elt F)) : after ops V (main_arg1 : DevRef τ sig) = V (main_arg1 : DevRef τ sig) := by
  show after (opsA ++ opsB ++ opsZ ++ opsP ++ opsW ++ opsO ++ opsT) V _ = _
  rw [after_app, after_app, after_app, after_app, after_app, after_app]
  after_results_simp

theorem arg2_eq (V : Valuation τ sig (Elt F)) : after ops V (main_arg2 : DevRef τ sig) = V (main_arg2 : DevRef τ sig) := by
  show after (opsA ++ opsB ++ opsZ ++ opsP ++ opsW ++ opsO ++ opsT) V _ = _
  rw [after_app, after_app, after_app, after_app, after_app, after_app]
  after_results_simp

theorem arg3_eq (V : Valuation τ sig (Elt F)) : after ops V (main_arg3 : DevRef τ sig) = V (main_arg3 : DevRef τ sig) := by
  show after (opsA ++ opsB ++ opsZ ++ opsP ++ opsW ++ opsO ++ opsT) V _ = _
  rw [after_app, after_app, after_app, after_app, after_app, after_app]
  after_results_simp

theorem arg4_eq (V : Valuation τ sig (Elt F)) : after ops V (main_arg4 : DevRef τ sig) = V (main_arg4 : DevRef τ sig) := by
  show after (opsA ++ opsB ++ opsZ ++ opsP ++ opsW ++ opsO ++ opsT) V _ = _
  rw [after_app, after_app, after_app, after_app, after_app, after_app]
  after_results_simp

/-- On the one device, from any memory with zero counters: every weakly fair execution of @main terminates with the
    result buffer at the reference's function of the five arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v56) : T32x32768.Idx → EReal)
          = refOut (F := Ideal) (m ((c.tc : Thread nD τ).loc main_arg0) : T32x2048x512.Idx → EReal)
              (m ((c.tc : Thread nD τ).loc main_arg1) : T512x64.Idx → EReal)
              (m ((c.tc : Thread nD τ).loc main_arg2) : T1x512x64.Idx → EReal)
              (m ((c.tc : Thread nD τ).loc main_arg3) : T64.Idx → EReal)
              (m ((c.tc : Thread nD τ).loc main_arg4) : T64.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v56).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.RRun

end
-- ==== Proof.RStage1.lean ====
/-
  The reference's first two stages read at an index: the batch-normalised scores and the row softmax at row r,
  column k are the softmax of that row's normalised scores.
-/
import proofs.«160465_j19688130085433_1_alg».proof.Proof.Spec
import proofs.«160465_j19688130085433_1_alg».proof.Proof.Shared
import Idealize.ShloMosaic.Lib.Pipeline.Value
import Idealize.ShloMosaic.Lib.ValueLayout
import Idealize.ShloMosaic.Lib.IdealHost
import Idealize.ShloMosaic.PureOps.Ideal.Laws
import Idealize.ShloMosaic.PureOps.Reduce

noncomputable section

open scoped BigOperators

namespace Cert.Vlad

open Idealize.ShloMosaic Idealize.ShloMosaic.ValueIdx

/-! ## The pieces, each read at row r (and column k) -/

namespace RStage1

/-- A vector of 64 laid down the rows reads, at row r and column k, the vector at k. -/
theorem downRows_apply (v : FVec Ideal T64 .f32) (r : Fin 65536) (k : Fin 64) :
    downRows v (ix2 r k) = v (ix1 k) := by
  unfold downRows
  refine (broadcastInDim_apply _ _ _ (ix2 r k) (ix2 (0 : Fin 1) k) ?_).trans ?_
  · intro a
    match a with
    | ⟨0, _⟩ => rfl
    | ⟨1, _⟩ => rfl
  · refine broadcastInDim_apply _ _ _ (ix2 (0 : Fin 1) k) (ix1 k) ?_
    intro a
    match a with
    | ⟨0, _⟩ => rfl

/-- A vector of 65536 laid along the columns reads, at row r and column k, the vector at r. -/
theorem alongCols_apply (v : FVec Ideal T65536 .f32) (r : Fin 65536) (k : Fin 64) :
    alongCols v (ix2 r k) = v (ix1 r) := by
  unfold alongCols
  refine (broadcastInDim_apply _ _ _ (ix2 r k) (ix2 r (0 : Fin 1)) ?_).trans ?_
  · intro a
    match a with
    | ⟨0, _⟩ => rfl
    | ⟨1, _⟩ => rfl
  · refine broadcastInDim_apply _ _ _ (ix2 r (0 : Fin 1)) (ix1 r) ?_
    intro a
    match a with
    | ⟨0, _⟩ => rfl

/-- The batch-normalised score at row r, column k, is the row's normalised score at k. -/
theorem rz_apply (a : FVec Ideal T65536x64 .f32) (mu va g be : FVec Ideal T64 .f32) (r : Fin 65536) (k : Fin 64) :
    rz a mu va g be (ix2 r k)
      = zrow (fun k' => a (ix2 r k')) (fun k' => mu (ix1 k')) (fun k' => va (ix1 k')) (fun k' => g (ix1 k'))
          (fun k' => be (ix1 k')) k := by
  unfold rz zrow
  rw [addf_apply, mulf_apply, mulf_apply, subf_apply, downRows_apply, downRows_apply, downRows_apply, downRows_apply]
  -- the reciprocal root of the variance plus the epsilon, at column k
  have hrs : Host.rsqrt (addf va (broadcastInDim T64 ![] bc_s_64 (constant (F := Ideal) T_ .f32 0x3727C5AC#32))) (ix1 k)
      = Ideal.rsqrt (va (ix1 k) + epsBN) := by
    show Ideal.rsqrt (addf va (broadcastInDim T64 ![] bc_s_64 (constant (F := Ideal) T_ .f32 0x3727C5AC#32)) (ix1 k)) = _
    rw [addf_apply, broadcastInDim_scalar_apply, constant_apply]
    rfl
  rw [hrs]

/-- The row maximum the reference takes (from -inf, joined with -inf again) at row r. -/
theorem rowMax_apply (z : FVec Ideal T65536x64 .f32) (r : Fin 65536) :
    maximumf (broadcastInDim T65536 ![] bc_s_65536 (constant (F := Ideal) T_ .f32 0xFF800000#32))
        (Host.reduce FloatOps.maximumf z (constant (F := Ideal) T_ .f32 0xFF800000#32) red_a1 hT_) (ix1 r)
      = rmax (fun k' => z (ix2 r k')) := by
  have hred : T65536x64.Reduces [1] T65536 := by decide
  rw [maximumf_apply, broadcastInDim_scalar_apply, constant_apply,
    Host.reduce_eq_fold_single FloatOps.maximumf z _ red_a1 hred hT_ (ix1 r), constant_apply]
  unfold rmax
  have hfun : (z ∘ hred.lift (ix1 r)) = fun k' : Fin 64 => z (ix2 r k') := by
    funext k'
    refine congrArg z (funext fun a => Fin.ext ?_)
    match a with
    | ⟨0, _⟩ => rfl
    | ⟨1, _⟩ => rfl
  rw [hfun]
  rfl

/-- The reference's row sum from zero, at row r, is the sum over the row's 64 entries. -/
theorem rowSum_apply (e : FVec Ideal T65536x64 .f32) (r : Fin 65536) :
    Host.reduceAdd e (constant (F := Ideal) T_ .f32 0x00000000#32) red_a1 hT_ (ix1 r) = ∑ k' : Fin 64, e (ix2 r k') := by
  have hred : T65536x64.Reduces [1] T65536 := by decide
  rw [hostReduceAdd_apply, Ideal.hostReduceAdd_single red_a1 hred, constant_apply, Ideal.ofBits_zero_f32, zero_add]
  refine Finset.sum_congr rfl fun k' _ => congrArg e (funext fun a => Fin.ext ?_)
  match a with
  | ⟨0, _⟩ => rfl
  | ⟨1, _⟩ => rfl

/-- The reference's row softmax at row r, column k, is the softmax of row r of its operand. -/
theorem rp_apply (z : FVec Ideal T65536x64 .f32) (r : Fin 65536) (k : Fin 64) :
    rp z (ix2 r k) = soft (fun k' => z (ix2 r k')) k := by
  unfold rp soft
  dsimp only
  rw [hostDivf_apply, alongCols_apply, rowSum_apply]
  -- the shifted exponential at any column of row r
  have hexp : ∀ k' : Fin 64,
      Host.exp (subf z (alongCols (maximumf (broadcastInDim T65536 ![] bc_s_65536 (constant (F := Ideal) T_ .f32 0xFF800000#32))
          (Host.reduce FloatOps.maximumf z (constant (F := Ideal) T_ .f32 0xFF800000#32) red_a1 hT_)))) (ix2 r k')
        = Ideal.exp (z (ix2 r k') - rmax (fun k'' => z (ix2 r k''))) := by
    intro k'
    show Ideal.exp (subf z (alongCols (maximumf (broadcastInDim T65536 ![] bc_s_65536 (constant (F := Ideal) T_ .f32 0xFF800000#32))
          (Host.reduce FloatOps.maximumf z (constant (F := Ideal) T_ .f32 0xFF800000#32) red_a1 hT_))) (ix2 r k')) = _
    rw [subf_apply, alongCols_apply, rowMax_apply]
  rw [hexp k]
  refine congrArg (Ideal.div _) (Finset.sum_congr rfl fun k' _ => hexp k')

end RStage1

theorem rp_rz_apply (a : FVec Ideal T65536x64 .f32) (mu va g be : FVec Ideal T64 .f32) (r : Fin 65536) (k : Fin 64) :
    rp (rz a mu va g be) (ix2 r k)
      = soft (zrow (fun k' => a (ix2 r k')) (fun k' => mu (ix1 k')) (fun k' => va (ix1 k')) (fun k' => g (ix1 k'))
          (fun k' => be (ix1 k'))) k := by
  rw [RStage1.rp_apply]
  refine congrArg (fun z => soft z k) (funext fun k' => ?_)
  exact RStage1.rz_apply a mu va g be r k'

end Cert.Vlad

end
-- ==== Proof.RStage2.lean ====
/-
  The reference's last two stages read at an index: the residual aggregation over a member's rows and the column
  normalisation at member b, feature d, cluster k; and its raw scores as the plain sum over the 512 features.
-/
import proofs.«160465_j19688130085433_1_alg».proof.Proof.Spec
import proofs.«160465_j19688130085433_1_alg».proof.Proof.Shared
import Idealize.ShloMosaic.Lib.Pipeline.Value
import Idealize.ShloMosaic.Lib.ValueLayout
import Idealize.ShloMosaic.Lib.IdealHost

noncomputable section

open scoped BigOperators

namespace Cert.Vlad

open Idealize.ShloMosaic Idealize.ShloMosaic.ValueIdx

/-! ## The aggregation's contraction, axis by axis -/

/-- On the left operand's contracting axis 1 the operand index is the contraction's one coordinate. -/
theorem dotV_lhs_1 (j : T32x512x64.Idx) (q : dotV.contr.Idx) :
    ((dotV.lhsIdx j q) (1 : Fin 3)).val = (q ⟨0, by decide⟩).val :=
  DotDims.lhsIdx_val_of_single dotV (cl := (1 : Fin 3)) rfl j q

/-- On the right operand's contracting axis 1 likewise. -/
theorem dotV_rhs_1 (j : T32x512x64.Idx) (q : dotV.contr.Idx) :
    ((dotV.rhsIdx j q) (1 : Fin 3)).val = (q ⟨0, by decide⟩).val :=
  DotDims.rhsIdx_val_of_single dotV (cr := (1 : Fin 3)) rfl j q

/-- The left operand's batch axis 0 reads the result's member. -/
theorem dotV_lhs_0 (j : T32x512x64.Idx) (q : dotV.contr.Idx) :
    ((dotV.lhsIdx j q) (0 : Fin 3)).val = (j 0).val := by
  unfold DotDims.lhsIdx
  rw [dif_pos (show (0 : Fin T32x2048x512.rank) ∈ dotV.lhsBatch by decide)]
  rfl

/-- The left operand's free axis 2 reads the result's feature (its axis 1). -/
theorem dotV_lhs_2 (j : T32x512x64.Idx) (q : dotV.contr.Idx) :
    ((dotV.lhsIdx j q) (2 : Fin 3)).val = (j 1).val := by
  unfold DotDims.lhsIdx
  rw [dif_neg (show ¬ (2 : Fin T32x2048x512.rank) ∈ dotV.lhsBatch by decide),
    dif_pos (show (2 : Fin T32x2048x512.rank) ∈ dotV.lhsNonContracting by decide)]
  rfl

/-- The right operand's batch axis 0 reads the result's member. -/
theorem dotV_rhs_0 (j : T32x512x64.Idx) (q : dotV.contr.Idx) :
    ((dotV.rhsIdx j q) (0 : Fin 3)).val = (j 0).val := by
  unfold DotDims.rhsIdx
  rw [dif_pos (show (0 : Fin T32x2048x64.rank) ∈ dotV.rhsBatch by decide)]
  rfl

/-- The right operand's free axis 2 reads the result's cluster (its axis 2). -/
theorem dotV_rhs_2 (j : T32x512x64.Idx) (q : dotV.contr.Idx) :
    ((dotV.rhsIdx j q) (2 : Fin 3)).val = (j 2).val := by
  unfold DotDims.rhsIdx
  rw [dif_neg (show ¬ (2 : Fin T32x2048x64.rank) ∈ dotV.rhsBatch by decide),
    dif_pos (show (2 : Fin T32x2048x64.rank) ∈ dotV.rhsNonContracting by decide)]
  rfl

/-- The batched product at member b, feature d, cluster k: the sum over the member's 2048 rows. -/
theorem dotV_apply (x : FVec Ideal T32x2048x512 .f32) (q : FVec Ideal T32x2048x64 .f32)
    (b : Fin 32) (d : Fin 512) (k : Fin 64) :
    Host.dotGeneral dotV none x q (ix3 b d k) = ∑ n : Fin 2048, x (ix3 b n d) * q (ix3 b n k) := by
  simp only [Host.dotGeneral]
  rw [Ideal.dotGeneral_apply, ← Equiv.sum_comp (contrEquiv1 dotV 2048 rfl rfl).symm]
  refine Finset.sum_congr rfl fun n _ => ?_
  have hn := contrEquiv1_symm_val dotV 2048 rfl rfl n
  have hl : dotV.lhsIdx (ix3 b d k) ((contrEquiv1 dotV 2048 rfl rfl).symm n) = ix3 b n d := by
    funext ax; apply Fin.ext
    match ax with
    | ⟨0, _⟩ => exact dotV_lhs_0 _ _
    | ⟨1, _⟩ => exact (dotV_lhs_1 _ _).trans hn
    | ⟨2, _⟩ => exact dotV_lhs_2 _ _
  have hr : dotV.rhsIdx (ix3 b d k) ((contrEquiv1 dotV 2048 rfl rfl).symm n) = ix3 b n k := by
    funext ax; apply Fin.ext
    match ax with
    | ⟨0, _⟩ => exact dotV_rhs_0 _ _
    | ⟨1, _⟩ => exact (dotV_rhs_1 _ _).trans hn
    | ⟨2, _⟩ => exact dotV_rhs_2 _ _
  rw [hl, hr]

/-- Row (b, n) of the scores reshaped member by member is row b·2048 + n of the flattened scores. -/
theorem p3_apply (p : FVec Ideal T65536x64 .f32) (b : Fin 32) (n : Fin 2048) (k : Fin 64) :
    shapeCast T32x2048x64 p sc_a_3 (ix3 b n k) = p (ix2 (rowOf b n) k) :=
  shapeCast_apply p sc_a_3 (ix3 b n k) (ix2 (rowOf b n) k) (by
    rw [Shape.rowMajor_val_two, Shape.rowMajor_val_three]
    rfl)

/-- The two one-axis reductions' witnesses: axis 1 of [32, 2048, 64] and of [32, 512, 64] dropped leaves [32, 64]. -/
theorem red_p1' : T32x2048x64.Reduces [1] T32x64 := by decide
theorem red_o1' : T32x512x64.Reduces [1] T32x64 := by decide

/-- A member's total assignment to cluster k: the sum over its 2048 rows. -/
theorem tot_apply (q : FVec Ideal T32x2048x64 .f32) (b : Fin 32) (k : Fin 64) :
    Host.reduceAdd (F := Ideal) q (constant (F := Ideal) T_ .f32 0x00000000#32) red_p1 hT_ (ix2 b k)
      = ∑ n : Fin 2048, q (ix3 b n k) := by
  rw [hostReduceAdd_apply, Ideal.hostReduceAdd_single red_p1 red_p1', constant_apply, Ideal.ofBits_zero_f32, zero_add]
  show ∑ n : Fin 2048, q (red_p1'.lift (ix2 b k) n) = _
  refine Finset.sum_congr rfl fun n _ => congrArg q ?_
  funext ax; apply Fin.ext
  match ax with
  | ⟨0, _⟩ => rfl
  | ⟨1, _⟩ => rfl
  | ⟨2, _⟩ => rfl

/-- The squared norm of column k of member b: the sum over the 512 features. -/
theorem sq_apply (w : FVec Ideal T32x512x64 .f32) (b : Fin 32) (k : Fin 64) :
    Host.reduceAdd (F := Ideal) (mulf w w) (constant (F := Ideal) T_ .f32 0x00000000#32) red_o1 hT_ (ix2 b k)
      = ∑ d' : Fin 512, w (ix3 b d' k) * w (ix3 b d' k) := by
  rw [hostReduceAdd_apply, Ideal.hostReduceAdd_single red_o1 red_o1', constant_apply, Ideal.ofBits_zero_f32, zero_add]
  show ∑ d' : Fin 512, mulf w w (red_o1'.lift (ix2 b k) d') = _
  refine Finset.sum_congr rfl fun d' _ => ?_
  have e : red_o1'.lift (ix2 b k) d' = ix3 b d' k := by
    funext ax; apply Fin.ext
    match ax with
    | ⟨0, _⟩ => rfl
    | ⟨1, _⟩ => rfl
    | ⟨2, _⟩ => rfl
  rw [e, mulf_apply]

/-- A [32, 1, 64] array broadcast to [32, 512, 64] reads (b, 0, k) at every feature d. -/
theorem up_apply (u : FVec Ideal T32x1x64 .f32) (b : Fin 32) (d : Fin 512) (k : Fin 64) :
    broadcastInDim T32x512x64 ![0, 1, 2] bc_mid_o u (ix3 b d k) = u (ix3 b (0 : Fin 1) k) :=
  broadcastInDim_apply ![0, 1, 2] bc_mid_o u (ix3 b d k) (ix3 b (0 : Fin 1) k) (by
    intro c
    match c with
    | ⟨0, _⟩ => rfl
    | ⟨1, _⟩ => rfl
    | ⟨2, _⟩ => rfl)

/-- A [32, 64] array given a unit middle axis reads (b, k). -/
theorem mid1_apply (v : FVec Ideal T32x64 .f32) (b : Fin 32) (k : Fin 64) :
    broadcastInDim T32x1x64 ![0, 2] bc_32x64_mid v (ix3 b (0 : Fin 1) k) = v (ix2 b k) :=
  broadcastInDim_apply ![0, 2] bc_32x64_mid v (ix3 b (0 : Fin 1) k) (ix2 b k) (by
    intro c
    match c with
    | ⟨0, _⟩ => rfl
    | ⟨1, _⟩ => rfl)

/-- The host's square root at an index is the extended reals' square root of the element. -/
theorem hostSqrt_apply {s : Shape} (v : FVec Ideal s .f32) (i : s.Idx) : Host.sqrt v i = Ideal.sqrt (v i) := rfl

/-- The second table broadcast over the 32 members reads its one leading row. -/
theorem c2b_apply (c2 : FVec Ideal T1x512x64 .f32) (b : Fin 32) (d : Fin 512) (k : Fin 64) :
    broadcastInDim T32x512x64 ![0, 1, 2] bc_c2_o c2 (ix3 b d k) = c2 (ix3 0 d k) :=
  broadcastInDim_apply ![0, 1, 2] bc_c2_o c2 (ix3 b d k) (ix3 (0 : Fin 1) d k) (by
    intro c
    match c with
    | ⟨0, _⟩ => rfl
    | ⟨1, _⟩ => rfl
    | ⟨2, _⟩ => rfl)

/-- The residual stage at member b, feature d, cluster k. -/
theorem rw_apply (x : FVec Ideal T32x2048x512 .f32) (p : FVec Ideal T65536x64 .f32) (c2 : FVec Ideal T1x512x64 .f32)
    (b : Fin 32) (d : Fin 512) (k : Fin 64) :
    rw x p c2 (ix3 b d k)
      = resid (fun n d' => x (ix3 b n d')) (fun n k' => p (ix2 (rowOf b n) k')) (fun d' k' => c2 (ix3 0 d' k')) d k := by
  unfold rw resid
  rw [subf_apply, mulf_apply, dotV_apply, up_apply, mid1_apply, tot_apply, c2b_apply]
  simp only [p3_apply]

/-- The column normalisation at member b, feature d, cluster k. -/
theorem ro_apply (w : FVec Ideal T32x512x64 .f32) (b : Fin 32) (d : Fin 512) (k : Fin 64) :
    ro w (ix3 b d k) = colnorm (fun d' k' => w (ix3 b d' k')) d k := by
  unfold ro colnorm
  rw [hostDivf_apply, up_apply, maximumf_apply, hostSqrt_apply, mid1_apply, sq_apply, broadcastInDim_scalar_apply,
    constant_apply]
  rfl

theorem ro_rw_apply (x : FVec Ideal T32x2048x512 .f32) (p : FVec Ideal T65536x64 .f32) (c2 : FVec Ideal T1x512x64 .f32)
    (b : Fin 32) (d : Fin 512) (k : Fin 64) :
    ro (rw x p c2) (ix3 b d k)
      = colnorm (resid (fun n d' => x (ix3 b n d')) (fun n k' => p (ix2 (rowOf b n) k')) (fun d' k' => c2 (ix3 0 d' k'))) d k := by
  rw [ro_apply]
  exact congrArg (fun w => colnorm w d k) (funext fun d' => funext fun k' => rw_apply x p c2 b d' k')

/-! ## The scores' contraction -/

/-- On the left operand's contracting axis 1 the operand index is the contraction's one coordinate. -/
theorem dotS_lhs_1 (j : T65536x64.Idx) (q : dotS.contr.Idx) :
    ((dotS.lhsIdx j q) (1 : Fin 2)).val = (q ⟨0, by decide⟩).val :=
  DotDims.lhsIdx_val_of_single dotS (cl := (1 : Fin 2)) rfl j q

/-- On the right operand's contracting axis 0 likewise. -/
theorem dotS_rhs_0 (j : T65536x64.Idx) (q : dotS.contr.Idx) :
    ((dotS.rhsIdx j q) (0 : Fin 2)).val = (q ⟨0, by decide⟩).val :=
  DotDims.rhsIdx_val_of_single dotS (cr := (0 : Fin 2)) rfl j q

/-- The left operand's free axis 0 reads the result's row. -/
theorem dotS_lhs_0 (j : T65536x64.Idx) (q : dotS.contr.Idx) :
    ((dotS.lhsIdx j q) (0 : Fin 2)).val = (j 0).val := by
  unfold DotDims.lhsIdx
  rw [dif_neg (show ¬ (0 : Fin T65536x512.rank) ∈ dotS.lhsBatch by decide),
    dif_pos (show (0 : Fin T65536x512.rank) ∈ dotS.lhsNonContracting by decide)]
  rfl

/-- The right operand's free axis 1 reads the result's column. -/
theorem dotS_rhs_1 (j : T65536x64.Idx) (q : dotS.contr.Idx) :
    ((dotS.rhsIdx j q) (1 : Fin 2)).val = (j 1).val := by
  unfold DotDims.rhsIdx
  rw [dif_neg (show ¬ (1 : Fin T512x64.rank) ∈ dotS.rhsBatch by decide),
    dif_pos (show (1 : Fin T512x64.rank) ∈ dotS.rhsNonContracting by decide)]
  rfl

/-- The scores' product at row r, cluster k: the sum over the 512 features. -/
theorem dotS_apply (xf : FVec Ideal T65536x512 .f32) (cl : FVec Ideal T512x64 .f32) (r : Fin 65536) (k : Fin 64) :
    Host.dotGeneral dotS none xf cl (ix2 r k) = ∑ d : Fin 512, xf (ix2 r d) * cl (ix2 d k) := by
  simp only [Host.dotGeneral]
  rw [Ideal.dotGeneral_apply, ← Equiv.sum_comp (contrEquiv1 dotS 512 rfl rfl).symm]
  refine Finset.sum_congr rfl fun d _ => ?_
  have hd := contrEquiv1_symm_val dotS 512 rfl rfl d
  have hl : dotS.lhsIdx (ix2 r k) ((contrEquiv1 dotS 512 rfl rfl).symm d) = ix2 r d := by
    funext ax; apply Fin.ext
    match ax with
    | ⟨0, _⟩ => exact dotS_lhs_0 _ _
    | ⟨1, _⟩ => exact (dotS_lhs_1 _ _).trans hd
  have hr : dotS.rhsIdx (ix2 r k) ((contrEquiv1 dotS 512 rfl rfl).symm d) = ix2 d k := by
    funext ax; apply Fin.ext
    match ax with
    | ⟨0, _⟩ => exact (dotS_rhs_0 _ _).trans hd
    | ⟨1, _⟩ => exact dotS_rhs_1 _ _
  rw [hl, hr]

theorem refScores_eq (x : FVec Ideal T32x2048x512 .f32) (cl : FVec Ideal T512x64 .f32) :
    refScores x cl = scoresF (shapeCast T65536x512 x sc_x_flat) cl := by
  funext i
  obtain ⟨r, k, rfl⟩ : ∃ (r : Fin 65536) (k : Fin 64), i = ix2 r k := ⟨i 0, i 1, eq_ix2 i⟩
  unfold refScores scoresF
  exact dotS_apply _ cl r k

end Cert.Vlad
end
-- ==== Proof.RVal.lean ====
/-
  The reference's result before its final normalisation is the specification's array: stage by stage, its softmax
  of the normalised scores feeds its residual aggregation and column normalisation.
-/
import proofs.«160465_j19688130085433_1_alg».proof.Proof.RStage1
import proofs.«160465_j19688130085433_1_alg».proof.Proof.RStage2

noncomputable section

open scoped BigOperators

namespace Cert.Vlad

open Idealize.ShloMosaic Idealize.ShloMosaic.ValueIdx

theorem refV47_eq (x : FVec Ideal T32x2048x512 .f32) (a : FVec Ideal T65536x64 .f32) (mu va g be : FVec Ideal T64 .f32)
    (c2 : FVec Ideal T1x512x64 .f32) :
    refV47 x a mu va g be c2 = Oarr x a mu va g be c2 := by
  funext i
  obtain ⟨b, d, k, rfl⟩ : ∃ (b : Fin 32) (d : Fin 512) (k : Fin 64), i = ix3 b d k := ⟨i 0, i 1, i 2, eq_ix3 i⟩
  unfold refV47
  rw [ro_rw_apply]
  show _ = oAt x a mu va g be c2 b d k
  unfold oAt vladBlock
  have hp : (fun (n : Fin 2048) (k' : Fin 64) => rp (rz a mu va g be) (ix2 (rowOf b n) k'))
      = fun n => soft (zrow (fun k' => a (ix2 (rowOf b n) k')) (fun k' => mu (ix1 k')) (fun k' => va (ix1 k'))
          (fun k' => g (ix1 k')) (fun k' => be (ix1 k'))) := by
    funext n k'
    exact rp_rz_apply a mu va g be (rowOf b n) k'
  rw [hp]

end Cert.Vlad

end
-- ==== Proof.RValue.lean ====
/-
  The reference's composed term is the target: its raw scores are the plain sums, and its middle stretch is the
  specification's array.
-/
import proofs.«160465_j19688130085433_1_alg».proof.Proof.RVal
import proofs.«160465_j19688130085433_1_alg».proof.Proof.Target

noncomputable section

open scoped BigOperators

namespace Cert.Vlad

open Idealize.ShloMosaic

theorem refOut_eq (x : FVec Ideal T32x2048x512 .f32) (cl : FVec Ideal T512x64 .f32) (c2 : FVec Ideal T1x512x64 .f32)
    (g be : FVec Ideal T64 .f32) : refOut x cl c2 g be = target x cl c2 g be := by
  unfold refOut target
  rw [refScores_eq, refV47_eq]

end Cert.Vlad

end
-- ==== Proof.lean ====
/-
  A NetVLAD layer as two kernels — the raw cluster scores of all 65536 rows, then per batch member the softmax of
  the batch-normalised scores, the residual aggregation against the second cluster table and the column
  normalisation over the feature axis — against the same layer written with whole-array operations, equal over
  the extended reals.

  Both programs compute, from the rows x, the tables cl and c2 and the batch-norm parameters g and be: the scores
  a[r, k] = sum over d of x[r, d] * cl[d, k]; their mean and variance over all rows (the same host operations in
  both programs); z = ((a - mean) * rsqrt (var + eps₁)) * g + be; p = the row softmax of z; for each member
  w[d, k] = sum over n of x[n, d] * p[n, k] - (sum over n of p[n, k]) * c2[d, k]; o = w / max (norm of w over d) eps₂;
  and last each member's 512·64 entries divided by their common norm floored at eps₂ (again the same host
  operations). The two differ only in how sums are grouped (a block product per grid point against one
  contraction; lane and sublane reductions against host reductions), which the extended reals do not see, so no
  finiteness of the inputs is used.

  The kernel's value is read off its run block by block (each kernel's blocks tile its output array), the
  reference's off its run operation by operation; both are the one function `Cert.Vlad.target` of the arguments.
  The idealization rewrote nothing, so its conjunct is trivial.
-/
import proofs.«160465_j19688130085433_1_alg».proof.Defs
import proofs.«160465_j19688130085433_1_alg».proof.Proof.Gen.Kernel
import proofs.«160465_j19688130085433_1_alg».proof.Proof.Gen.Kernel.Skeleton
import proofs.«160465_j19688130085433_1_alg».proof.Proof.Gen.Kernel.Launch
import proofs.«160465_j19688130085433_1_alg».proof.Proof.Gen.Kernel.Points
import proofs.«160465_j19688130085433_1_alg».proof.Proof.Gen.Kernel.Frame
import proofs.«160465_j19688130085433_1_alg».proof.Proof.Gen.KernelIdeal
import proofs.«160465_j19688130085433_1_alg».proof.Proof.Gen.KernelIdeal.Skeleton
import proofs.«160465_j19688130085433_1_alg».proof.Proof.Gen.KernelIdeal.Launch
import proofs.«160465_j19688130085433_1_alg».proof.Proof.Gen.KernelIdeal.Points
import proofs.«160465_j19688130085433_1_alg».proof.Proof.Gen.KernelIdeal.Frame
import proofs.«160465_j19688130085433_1_alg».proof.Proof.Gen.ReferenceIdeal
import proofs.«160465_j19688130085433_1_alg».proof.Proof.Gen.Pre_finite_inputs
import proofs.«160465_j19688130085433_1_alg».proof.Proof.KRun
import proofs.«160465_j19688130085433_1_alg».proof.Proof.KValue
import proofs.«160465_j19688130085433_1_alg».proof.Proof.RRun
import proofs.«160465_j19688130085433_1_alg».proof.Proof.RValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, the result forgotten. -/
theorem frame_ri : Cert.frame_ReferenceIdeal := fun m ρ _ =>
  (θ_run Cert.ReferenceIdeal.defs _ _).mono (fun _ h c => (h c).2) (Cert.ReferenceIdeal.RRun.run m ρ)

/-- The ideal pass rewrote no operation. -/
theorem preserves : Cert.preserves_Kernel_KernelIdeal := trivial

/-- From memories that agree on the five arguments both programs end with the target of those arguments. -/
theorem algebraic : Cert.algebraic_KernelIdeal_ReferenceIdeal := by
  intro m ρ m' ρ' _ hagree
  refine ⟨fun c => Cert.Vlad.target
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.KValue.W7_value m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.RRun.run m' ρ')
    rw [Cert.Vlad.refOut_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
